-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x31 : Shape := ⟨4, ![8, 512, 512, 31]⟩
abbrev S1x512x512x31 : Shape := ⟨4, ![1, 512, 512, 31]⟩
abbrev S_ : Shape := ⟨0, ![]⟩

class Facts : Prop where
  bcast_S_S8x512x512x31 : S_.BroadcastsInDim S8x512x512x31 (![] : Fin 0 → Fin S8x512x512x31.rank)
  reducesTo_S8x512x512x31_S_d0_1_2_3 : S8x512x512x31.ReducesTo [0, 1, 2, 3] S_
  h_S_ : 0 < S_.numel
  bcast_S_S1x512x512x31 : S_.BroadcastsInDim S1x512x512x31 (![] : Fin 0 → Fin S1x512x512x31.rank)
  reducesTo_S1x512x512x31_S_d0_1_2_3 : S1x512x512x31.ReducesTo [0, 1, 2, 3] S_

variable [Facts]

def fn {F : FTy → Type} [FloatOps F] (main_arg0 : FVec F S8x512x512x31 .f32) (main_arg1 : FVec F S1x512x512x31 .f32) : IVec S_ 1 :=
  let main_v0 : FVec F S8x512x512x31 .f32 := Host.absf main_arg0
  let main_cst : FVec F S_ .f32 := constant S_ .f32 0x7F800000#32
  let main_v1 : FVec F S8x512x512x31 .f32 := broadcastInDim S8x512x512x31 ![] bcast_S_S8x512x512x31 main_cst
  let main_v2 : IVec S8x512x512x31 1 := cmpf .olt main_v0 main_v1
  let main_c : IVec S_ 1 := constantI S_ 1 1#1
  let main_v3 : IVec S_ 1 := (fun x v => Host.reduce IntOp.andi x v reducesTo_S8x512x512x31_S_d0_1_2_3 h_S_) main_v2 main_c
  let main_v4 : FVec F S1x512x512x31 .f32 := Host.absf main_arg1
  let main_cst_0 : FVec F S_ .f32 := constant S_ .f32 0x7F800000#32
  let main_v5 : FVec F S1x512x512x31 .f32 := broadcastInDim S1x512x512x31 ![] bcast_S_S1x512x512x31 main_cst_0
  let main_v6 : IVec S1x512x512x31 1 := cmpf .olt main_v4 main_v5
  let main_c_1 : IVec S_ 1 := constantI S_ 1 1#1
  let main_v7 : IVec S_ 1 := (fun x v => Host.reduce IntOp.andi x v reducesTo_S1x512x512x31_S_d0_1_2_3 h_S_) main_v6 main_c_1
  let main_v8 : IVec S_ 1 := andi main_v3 main_v7
  main_v8
-- ==== Kernel.lean ====
abbrev S8x512x512x31 : Shape := ⟨4, ![8, 512, 512, 31]⟩
abbrev S1x512x512x31 : Shape := ⟨4, ![1, 512, 512, 31]⟩
abbrev S8x512x542 : Shape := ⟨3, ![8, 512, 542]⟩
abbrev S1x128x512x31 : Shape := ⟨4, ![1, 128, 512, 31]⟩
abbrev S1x128x542 : Shape := ⟨3, ![1, 128, 542]⟩
abbrev S128x512x31 : Shape := ⟨3, ![128, 512, 31]⟩
abbrev S128x542 : Shape := ⟨2, ![128, 542]⟩
abbrev S1x128x512 : Shape := ⟨3, ![1, 128, 512]⟩
abbrev S128x512 : Shape := ⟨2, ![128, 512]⟩
abbrev S128x512x1 : Shape := ⟨3, ![128, 512, 1]⟩
abbrev S_ : Shape := ⟨0, ![]⟩
abbrev S8x512x542x1 : Shape := ⟨4, ![8, 512, 542, 1]⟩
abbrev S1x512x512x31x1 : Shape := ⟨5, ![1, 512, 512, 31, 1]⟩

abbrev nBuf : Space → Nat
  | .hbm => 9
  | .vmem => 6
  | .smem => 0
  | _ => 0

abbrev bufTy : (tb : Table) → Fin (tcTables nBuf tb) → BufTy
  | .hbm, ⟨0, _⟩ => ⟨S8x512x512x31, .f32⟩
  | .hbm, ⟨1, _⟩ => ⟨S1x512x512x31, .f32⟩
  | .hbm, ⟨2, _⟩ => ⟨S8x512x542, .f32⟩
  | .hbm, ⟨3, _⟩ => ⟨S_, .f32⟩
  | .hbm, ⟨4, _⟩ => ⟨S_, .f32⟩
  | .hbm, ⟨5, _⟩ => ⟨S8x512x542, .f32⟩
  | .hbm, ⟨6, _⟩ => ⟨S8x512x542, .f32⟩
  | .hbm, ⟨7, _⟩ => ⟨S8x512x542x1, .f32⟩
  | .hbm, ⟨8, _⟩ => ⟨S1x512x512x31x1, .f32⟩
  | .local _ .vmem, ⟨0, _⟩ => ⟨S1x128x512x31, .f32⟩
  | .local _ .vmem, ⟨1, _⟩ => ⟨S1x128x512x31, .f32⟩
  | .local _ .vmem, ⟨2, _⟩ => ⟨S1x128x512x31, .f32⟩
  | .local _ .vmem, ⟨3, _⟩ => ⟨S1x128x512x31, .f32⟩
  | .local _ .vmem, ⟨4, _⟩ => ⟨S1x128x542, .f32⟩
  | .local _ .vmem, ⟨5, _⟩ => ⟨S1x128x542, .f32⟩
  | _, _ => ⟨S8x512x512x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x128x512x31 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512x31 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x542 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x128x512x31_S1x128x512x31_0_0_0_0 : ∀ a, (![0, 0, 0, 0] : Fin 4 → Nat) a + S1x128x512x31.size a ≤ S1x128x512x31.size a
  h_S1x128x512x31 : 0 < S1x128x512x31.numel
  shapeCasts_S1x128x512x31_S128x512x31 : S1x128x512x31.ShapeCasts S128x512x31
  inb_S1x128x542_S1x128x542_0_0_0 : ∀ a, (![0, 0, 0] : Fin 3 → Nat) a + S1x128x542.size a ≤ S1x128x542.size a
  h_S1x128x542 : 0 < S1x128x542.numel
  shapeCasts_S1x128x542_S128x542 : S1x128x542.ShapeCasts S128x542
  shapeCasts_S128x542_S1x128x542 : S128x542.ShapeCasts S1x128x542
  inb_S1x128x542_S1x128x512_0_0_0 : ∀ a, (![0, 0, 0] : Fin 3 → Nat) a + S1x128x512.size a ≤ S1x128x542.size a
  h_S1x128x512 : 0 < S1x128x512.numel
  shapeCasts_S1x128x512_S128x512 : S1x128x512.ShapeCasts S128x512
  slices_S128x512x31_o0_0_0_S128x512x1 : S128x512x31.Slices ![0, 0, 0] S128x512x1
  shapeCasts_S128x512x1_S128x512 : S128x512x1.ShapeCasts S128x512
  shapeCasts_S128x512_S1x128x512 : S128x512.ShapeCasts S1x128x512
  inb_S1x128x542_S1x128x512_0_0_1 : ∀ a, (![0, 0, 1] : Fin 3 → Nat) a + S1x128x512.size a ≤ S1x128x542.size a
  slices_S128x512x31_o0_0_1_S128x512x1 : S128x512x31.Slices ![0, 0, 1] S128x512x1
  inb_S1x128x542_S1x128x512_0_0_2 : ∀ a, (![0, 0, 2] : Fin 3 → Nat) a + S1x128x512.size a ≤ S1x128x542.size a
  slices_S128x512x31_o0_0_2_S128x512x1 : S128x512x31.Slices ![0, 0, 2] S128x512x1
  inb_S1x128x542_S1x128x512_0_0_3 : ∀ a, (![0, 0, 3] : Fin 3 → Nat) a + S1x128x512.size a ≤ S1x128x542.size a
  slices_S128x512x31_o0_0_3_S128x512x1 : S128x512x31.Slices ![0, 0, 3] S128x512x1
  inb_S1x128x542_S1x128x512_0_0_4 : ∀ a, (![0, 0, 4] : Fin 3 → Nat) a + S1x128x512.size a ≤ S1x128x542.size a
  slices_S128x512x31_o0_0_4_S128x512x1 : S128x512x31.Slices ![0, 0, 4] S128x512x1
  inb_S1x128x542_S1x128x512_0_0_5 : ∀ a, (![0, 0, 5] : Fin 3 → Nat) a + S1x128x512.size a ≤ S1x128x542.size a
  slices_S128x512x31_o0_0_5_S128x512x1 : S128x512x31.Slices ![0, 0, 5] S128x512x1
  inb_S1x128x542_S1x128x512_0_0_6 : ∀ a, (![0, 0, 6] : Fin 3 → Nat) a + S1x128x512.size a ≤ S1x128x542.size a
  slices_S128x512x31_o0_0_6_S128x512x1 : S128x512x31.Slices ![0, 0, 6] S128x512x1
  inb_S1x128x542_S1x128x512_0_0_7 : ∀ a, (![0, 0, 7] : Fin 3 → Nat) a + S1x128x512.size a ≤ S1x128x542.size a
  slices_S128x512x31_o0_0_7_S128x512x1 : S128x512x31.Slices ![0, 0, 7] S128x512x1
  inb_S1x128x542_S1x128x512_0_0_8 : ∀ a, (![0, 0, 8] : Fin 3 → Nat) a + S1x128x512.size a ≤ S1x128x542.size a
  slices_S128x512x31_o0_0_8_S128x512x1 : S128x512x31.Slices ![0, 0, 8] S128x512x1
  inb_S1x128x542_S1x128x512_0_0_9 : ∀ a, (![0, 0, 9] : Fin 3 → Nat) a + S1x128x512.size a ≤ S1x128x542.size a
  slices_S128x512x31_o0_0_9_S128x512x1 : S128x512x31.Slices ![0, 0, 9] S128x512x1
  inb_S1x128x542_S1x128x512_0_0_10 : ∀ a, (![0, 0, 10] : Fin 3 → Nat) a + S1x128x512.size a ≤ S1x128x542.size a
  slices_S128x512x31_o0_0_10_S128x512x1 : S128x512x31.Slices ![0, 0, 10] S128x512x1
  inb_S1x128x542_S1x128x512_0_0_11 : ∀ a, (![0, 0, 11] : Fin 3 → Nat) a + S1x128x512.size a ≤ S1x128x542.size a
  slices_S128x512x31_o0_0_11_S128x512x1 : S128x512x31.Slices ![0, 0, 11] S128x512x1
  inb_S1x128x542_S1x128x512_0_0_12 : ∀ a, (![0, 0, 12] : Fin 3 → Nat) a + S1x128x512.size a ≤ S1x128x542.size a
  slices_S128x512x31_o0_0_12_S128x512x1 : S128x512x31.Slices ![0, 0, 12] S128x512x1
  inb_S1x128x542_S1x128x512_0_0_13 : ∀ a, (![0, 0, 13] : Fin 3 → Nat) a + S1x128x512.size a ≤ S1x128x542.size a
  slices_S128x512x31_o0_0_13_S128x512x1 : S128x512x31.Slices ![0, 0, 13] S128x512x1
  inb_S1x128x542_S1x128x512_0_0_14 : ∀ a, (![0, 0, 14] : Fin 3 → Nat) a + S1x128x512.size a ≤ S1x128x542.size a
  slices_S128x512x31_o0_0_14_S128x512x1 : S128x512x31.Slices ![0, 0, 14] S128x512x1
  inb_S1x128x542_S1x128x512_0_0_15 : ∀ a, (![0, 0, 15] : Fin 3 → Nat) a + S1x128x512.size a ≤ S1x128x542.size a
  slices_S128x512x31_o0_0_15_S128x512x1 : S128x512x31.Slices ![0, 0, 15] S128x512x1
  inb_S1x128x542_S1x128x512_0_0_16 : ∀ a, (![0, 0, 16] : Fin 3 → Nat) a + S1x128x512.size a ≤ S1x128x542.size a
  slices_S128x512x31_o0_0_16_S128x512x1 : S128x512x31.Slices ![0, 0, 16] S128x512x1
  inb_S1x128x542_S1x128x512_0_0_17 : ∀ a, (![0, 0, 17] : Fin 3 → Nat) a + S1x128x512.size a ≤ S1x128x542.size a
  slices_S128x512x31_o0_0_17_S128x512x1 : S128x512x31.Slices ![0, 0, 17] S128x512x1
  inb_S1x128x542_S1x128x512_0_0_18 : ∀ a, (![0, 0, 18] : Fin 3 → Nat) a + S1x128x512.size a ≤ S1x128x542.size a
  slices_S128x512x31_o0_0_18_S128x512x1 : S128x512x31.Slices ![0, 0, 18] S128x512x1
  inb_S1x128x542_S1x128x512_0_0_19 : ∀ a, (![0, 0, 19] : Fin 3 → Nat) a + S1x128x512.size a ≤ S1x128x542.size a
  slices_S128x512x31_o0_0_19_S128x512x1 : S128x512x31.Slices ![0, 0, 19] S128x512x1
  inb_S1x128x542_S1x128x512_0_0_20 : ∀ a, (![0, 0, 20] : Fin 3 → Nat) a + S1x128x512.size a ≤ S1x128x542.size a
  slices_S128x512x31_o0_0_20_S128x512x1 : S128x512x31.Slices ![0, 0, 20] S128x512x1
  inb_S1x128x542_S1x128x512_0_0_21 : ∀ a, (![0, 0, 21] : Fin 3 → Nat) a + S1x128x512.size a ≤ S1x128x542.size a
  slices_S128x512x31_o0_0_21_S128x512x1 : S128x512x31.Slices ![0, 0, 21] S128x512x1
  inb_S1x128x542_S1x128x512_0_0_22 : ∀ a, (![0, 0, 22] : Fin 3 → Nat) a + S1x128x512.size a ≤ S1x128x542.size a
  slices_S128x512x31_o0_0_22_S128x512x1 : S128x512x31.Slices ![0, 0, 22] S128x512x1
  inb_S1x128x542_S1x128x512_0_0_23 : ∀ a, (![0, 0, 23] : Fin 3 → Nat) a + S1x128x512.size a ≤ S1x128x542.size a
  slices_S128x512x31_o0_0_23_S128x512x1 : S128x512x31.Slices ![0, 0, 23] S128x512x1
  inb_S1x128x542_S1x128x512_0_0_24 : ∀ a, (![0, 0, 24] : Fin 3 → Nat) a + S1x128x512.size a ≤ S1x128x542.size a
  slices_S128x512x31_o0_0_24_S128x512x1 : S128x512x31.Slices ![0, 0, 24] S128x512x1
  inb_S1x128x542_S1x128x512_0_0_25 : ∀ a, (![0, 0, 25] : Fin 3 → Nat) a + S1x128x512.size a ≤ S1x128x542.size a
  slices_S128x512x31_o0_0_25_S128x512x1 : S128x512x31.Slices ![0, 0, 25] S128x512x1
  inb_S1x128x542_S1x128x512_0_0_26 : ∀ a, (![0, 0, 26] : Fin 3 → Nat) a + S1x128x512.size a ≤ S1x128x542.size a
  slices_S128x512x31_o0_0_26_S128x512x1 : S128x512x31.Slices ![0, 0, 26] S128x512x1
  inb_S1x128x542_S1x128x512_0_0_27 : ∀ a, (![0, 0, 27] : Fin 3 → Nat) a + S1x128x512.size a ≤ S1x128x542.size a
  slices_S128x512x31_o0_0_27_S128x512x1 : S128x512x31.Slices ![0, 0, 27] S128x512x1
  inb_S1x128x542_S1x128x512_0_0_28 : ∀ a, (![0, 0, 28] : Fin 3 → Nat) a + S1x128x512.size a ≤ S1x128x542.size a
  slices_S128x512x31_o0_0_28_S128x512x1 : S128x512x31.Slices ![0, 0, 28] S128x512x1
  inb_S1x128x542_S1x128x512_0_0_29 : ∀ a, (![0, 0, 29] : Fin 3 → Nat) a + S1x128x512.size a ≤ S1x128x542.size a
  slices_S128x512x31_o0_0_29_S128x512x1 : S128x512x31.Slices ![0, 0, 29] S128x512x1
  inb_S1x128x542_S1x128x512_0_0_30 : ∀ a, (![0, 0, 30] : Fin 3 → Nat) a + S1x128x512.size a ≤ S1x128x542.size a
  slices_S128x512x31_o0_0_30_S128x512x1 : S128x512x31.Slices ![0, 0, 30] S128x512x1
  reducesTo_S8x512x542_S_d0_1_2 : S8x512x542.ReducesTo [0, 1, 2] S_
  h_S_ : 0 < S_.numel
  bcast_S_S8x512x542 : S_.BroadcastsInDim S8x512x542 (![] : Fin 0 → Fin S8x512x542.rank)
  bcast_S8x512x542_S8x512x542x1_0_1_2 : S8x512x542.BroadcastsInDim S8x512x542x1 (![0, 1, 2] : Fin 3 → Fin S8x512x542x1.rank)
  bcast_S1x512x512x31_S1x512x512x31x1_0_1_2_3 : S1x512x512x31.BroadcastsInDim S1x512x512x31x1 (![0, 1, 2, 3] : Fin 4 → Fin S1x512x512x31x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512x31.size a ≤ S8x512x512x31.size a
  hwx0_0 : ∀ i : grid0.Coords, EltTy.bits .f32 = 32 ∨ (Rect.block (s := S8x512x512x31) S1x128x512x31.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512x31.size a ≤ S1x512x512x31.size a
  hwx0_1 : ∀ i : grid0.Coords, EltTy.bits .f32 = 32 ∨ (Rect.block (s := S1x512x512x31) S1x128x512x31.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x542.size a ≤ S8x512x542.size a
  hwx0_2 : ∀ i : grid0.Coords, EltTy.bits .f32 = 32 ∨ (Rect.block (s := S8x512x542) S1x128x542.size (cc0_transform_2 i) (hinb0_2 i)).WholeWords (EltTy.packing .f32)

variable [Facts₀]

abbrev win0_0 : Pipeline.Window sig grid0 :=
  Pipeline.Window.ofSpec (Memref.whole main_arg0) S1x128x512x31.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512x31.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x542.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x512x31 : Shape := ⟨4, ![8, 512, 512, 31]⟩
abbrev S1x512x512x31 : Shape := ⟨4, ![1, 512, 512, 31]⟩
abbrev S1x512x512x31x1 : Shape := ⟨5, ![1, 512, 512, 31, 1]⟩
abbrev S8x512x512x31x1 : Shape := ⟨5, ![8, 512, 512, 31, 1]⟩
abbrev S_ : Shape := ⟨0, ![]⟩
abbrev S8x512x542x1 : Shape := ⟨4, ![8, 512, 542, 1]⟩
abbrev S8x512x512x1x1 : Shape := ⟨5, ![8, 512, 512, 1, 1]⟩
abbrev S8x512x512x1 : Shape := ⟨4, ![8, 512, 512, 1]⟩
abbrev S1 : Shape := ⟨1, ![1]⟩

abbrev nBuf : Space → Nat
  | .hbm => 167
  | .vmem => 0
  | .smem => 0
  | _ => 0

abbrev hbmTy0_0 (i : Nat) : BufTy := match i % 128 with
  | 0 => ⟨S8x512x512x31, .f32⟩
  | 1 => ⟨S1x512x512x31, .f32⟩
  | 2 => ⟨S1x512x512x31x1, .f32⟩
  | 3 => ⟨S8x512x512x31x1, .f32⟩
  | 4 => ⟨S8x512x512x31x1, .f32⟩
  | 5 => ⟨S8x512x512x31x1, .f32⟩
  | 6 => ⟨S_, .f32⟩
  | 7 => ⟨S8x512x542x1, .f32⟩
  | 8 => ⟨S8x512x512x1x1, .f32⟩
  | 9 => ⟨S8x512x512x1, .f32⟩
  | 10 => ⟨S_, .i32⟩
  | 11 => ⟨S1, .i32⟩
  | 12 => ⟨S8x512x542x1, .f32⟩
  | 13 => ⟨S8x512x512x1x1, .f32⟩
  | 14 => ⟨S8x512x512x1, .f32⟩
  | 15 => ⟨S_, .i32⟩
  | 16 => ⟨S1, .i32⟩
  | 17 => ⟨S8x512x542x1, .f32⟩
  | 18 => ⟨S8x512x512x1x1, .f32⟩
  | 19 => ⟨S8x512x512x1, .f32⟩
  | 20 => ⟨S_, .i32⟩
  | 21 => ⟨S1, .i32⟩
  | 22 => ⟨S8x512x542x1, .f32⟩
  | 23 => ⟨S8x512x512x1x1, .f32⟩
  | 24 => ⟨S8x512x512x1, .f32⟩
  | 25 => ⟨S_, .i32⟩
  | 26 => ⟨S1, .i32⟩
  | 27 => ⟨S8x512x542x1, .f32⟩
  | 28 => ⟨S8x512x512x1x1, .f32⟩
  | 29 => ⟨S8x512x512x1, .f32⟩
  | 30 => ⟨S_, .i32⟩
  | 31 => ⟨S1, .i32⟩
  | 32 => ⟨S8x512x542x1, .f32⟩
  | 33 => ⟨S8x512x512x1x1, .f32⟩
  | 34 => ⟨S8x512x512x1, .f32⟩
  | 35 => ⟨S_, .i32⟩
  | 36 => ⟨S1, .i32⟩
  | 37 => ⟨S8x512x542x1, .f32⟩
  | 38 => ⟨S8x512x512x1x1, .f32⟩
  | 39 => ⟨S8x512x512x1, .f32⟩
  | 40 => ⟨S_, .i32⟩
  | 41 => ⟨S1, .i32⟩
  | 42 => ⟨S8x512x542x1, .f32⟩
  | 43 => ⟨S8x512x512x1x1, .f32⟩
  | 44 => ⟨S8x512x512x1, .f32⟩
  | 45 => ⟨S_, .i32⟩
  | 46 => ⟨S1, .i32⟩
  | 47 => ⟨S8x512x542x1, .f32⟩
  | 48 => ⟨S8x512x512x1x1, .f32⟩
  | 49 => ⟨S8x512x512x1, .f32⟩
  | 50 => ⟨S_, .i32⟩
  | 51 => ⟨S1, .i32⟩
  | 52 => ⟨S8x512x542x1, .f32⟩
  | 53 => ⟨S8x512x512x1x1, .f32⟩
  | 54 => ⟨S8x512x512x1, .f32⟩
  | 55 => ⟨S_, .i32⟩
  | 56 => ⟨S1, .i32⟩
  | 57 => ⟨S8x512x542x1, .f32⟩
  | 58 => ⟨S8x512x512x1x1, .f32⟩
  | 59 => ⟨S8x512x512x1, .f32⟩
  | 60 => ⟨S_, .i32⟩
  | 61 => ⟨S1, .i32⟩
  | 62 => ⟨S8x512x542x1, .f32⟩
  | 63 => ⟨S8x512x512x1x1, .f32⟩
  | 64 => ⟨S8x512x512x1, .f32⟩
  | 65 => ⟨S_, .i32⟩
  | 66 => ⟨S1, .i32⟩
  | 67 => ⟨S8x512x542x1, .f32⟩
  | 68 => ⟨S8x512x512x1x1, .f32⟩
  | 69 => ⟨S8x512x512x1, .f32⟩
  | 70 => ⟨S_, .i32⟩
  | 71 => ⟨S1, .i32⟩
  | 72 => ⟨S8x512x542x1, .f32⟩
  | 73 => ⟨S8x512x512x1x1, .f32⟩
  | 74 => ⟨S8x512x512x1, .f32⟩
  | 75 => ⟨S_, .i32⟩
  | 76 => ⟨S1, .i32⟩
  | 77 => ⟨S8x512x542x1, .f32⟩
  | 78 => ⟨S8x512x512x1x1, .f32⟩
  | 79 => ⟨S8x512x512x1, .f32⟩
  | 80 => ⟨S_, .i32⟩
  | 81 => ⟨S1, .i32⟩
  | 82 => ⟨S8x512x542x1, .f32⟩
  | 83 => ⟨S8x512x512x1x1, .f32⟩
  | 84 => ⟨S8x512x512x1, .f32⟩
  | 85 => ⟨S_, .i32⟩
  | 86 => ⟨S1, .i32⟩
  | 87 => ⟨S8x512x542x1, .f32⟩
  | 88 => ⟨S8x512x512x1x1, .f32⟩
  | 89 => ⟨S8x512x512x1, .f32⟩
  | 90 => ⟨S_, .i32⟩
  | 91 => ⟨S1, .i32⟩
  | 92 => ⟨S8x512x542x1, .f32⟩
  | 93 => ⟨S8x512x512x1x1, .f32⟩
  | 94 => ⟨S8x512x512x1, .f32⟩
  | 95 => ⟨S_, .i32⟩
  | 96 => ⟨S1, .i32⟩
  | 97 => ⟨S8x512x542x1, .f32⟩
  | 98 => ⟨S8x512x512x1x1, .f32⟩
  | 99 => ⟨S8x512x512x1, .f32⟩
  | 100 => ⟨S_, .i32⟩
  | 101 => ⟨S1, .i32⟩
  | 102 => ⟨S8x512x542x1, .f32⟩
  | 103 => ⟨S8x512x512x1x1, .f32⟩
  | 104 => ⟨S8x512x512x1, .f32⟩
  | 105 => ⟨S_, .i32⟩
  | 106 => ⟨S1, .i32⟩
  | 107 => ⟨S8x512x542x1, .f32⟩
  | 108 => ⟨S8x512x512x1x1, .f32⟩
  | 109 => ⟨S8x512x512x1, .f32⟩
  | 110 => ⟨S_, .i32⟩
  | 111 => ⟨S1, .i32⟩
  | 112 => ⟨S8x512x542x1, .f32⟩
  | 113 => ⟨S8x512x512x1x1, .f32⟩
  | 114 => ⟨S8x512x512x1, .f32⟩
  | 115 => ⟨S_, .i32⟩
  | 116 => ⟨S1, .i32⟩
  | 117 => ⟨S8x512x542x1, .f32⟩
  | 118 => ⟨S8x512x512x1x1, .f32⟩
  | 119 => ⟨S8x512x512x1, .f32⟩
  | 120 => ⟨S_, .i32⟩
  | 121 => ⟨S1, .i32⟩
  | 122 => ⟨S8x512x542x1, .f32⟩
  | 123 => ⟨S8x512x512x1x1, .f32⟩
  | 124 => ⟨S8x512x512x1, .f32⟩
  | 125 => ⟨S_, .i32⟩
  | 126 => ⟨S1, .i32⟩
  | 127 => ⟨S8x512x542x1, .f32⟩
  | _ => ⟨S8x512x512x31, .f32⟩

abbrev hbmTy0_1 (i : Nat) : BufTy := match i % 128 with
  | 0 => ⟨S8x512x512x1x1, .f32⟩
  | 1 => ⟨S8x512x512x1, .f32⟩
  | 2 => ⟨S_, .i32⟩
  | 3 => ⟨S1, .i32⟩
  | 4 => ⟨S8x512x542x1, .f32⟩
  | 5 => ⟨S8x512x512x1x1, .f32⟩
  | 6 => ⟨S8x512x512x1, .f32⟩
  | 7 => ⟨S_, .i32⟩
  | 8 => ⟨S1, .i32⟩
  | 9 => ⟨S8x512x542x1, .f32⟩
  | 10 => ⟨S8x512x512x1x1, .f32⟩
  | 11 => ⟨S8x512x512x1, .f32⟩
  | 12 => ⟨S_, .i32⟩
  | 13 => ⟨S1, .i32⟩
  | 14 => ⟨S8x512x542x1, .f32⟩
  | 15 => ⟨S8x512x512x1x1, .f32⟩
  | 16 => ⟨S8x512x512x1, .f32⟩
  | 17 => ⟨S_, .i32⟩
  | 18 => ⟨S1, .i32⟩
  | 19 => ⟨S8x512x542x1, .f32⟩
  | 20 => ⟨S8x512x512x1x1, .f32⟩
  | 21 => ⟨S8x512x512x1, .f32⟩
  | 22 => ⟨S_, .i32⟩
  | 23 => ⟨S1, .i32⟩
  | 24 => ⟨S8x512x542x1, .f32⟩
  | 25 => ⟨S8x512x512x1x1, .f32⟩
  | 26 => ⟨S8x512x512x1, .f32⟩
  | 27 => ⟨S_, .i32⟩
  | 28 => ⟨S1, .i32⟩
  | 29 => ⟨S8x512x542x1, .f32⟩
  | 30 => ⟨S8x512x512x1x1, .f32⟩
  | 31 => ⟨S8x512x512x1, .f32⟩
  | 32 => ⟨S_, .i32⟩
  | 33 => ⟨S1, .i32⟩
  | 34 => ⟨S8x512x542x1, .f32⟩
  | 35 => ⟨S_, .f32⟩
  | 36 => ⟨S_, .f32⟩
  | 37 => ⟨S8x512x542x1, .f32⟩
  | 38 => ⟨S8x512x542x1, .f32⟩
  | _ => ⟨S8x512x512x31, .f32⟩

abbrev hbmTy (i : Nat) : BufTy := match i / 128 with
  | 0 => hbmTy0_0 i
  | 1 => hbmTy0_1 i
  | _ => ⟨S8x512x512x31, .f32⟩

abbrev bufTy : (tb : Table) → Fin (tcTables nBuf tb) → BufTy
  | .hbm, ⟨i, _⟩ => hbmTy i
  | _, _ => ⟨S8x512x512x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_9 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_14 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_c_15 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c_16 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_17 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_c_18 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_c_19 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_c_20 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_c_21 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_c_22 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_c_23 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_c_24 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_c_25 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_c_26 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_c_27 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_c_28 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_c_29 : Ref sig .tc := ⟨.hbm, 160, rfl⟩
abbrev main_v127 : Ref sig .tc := ⟨.hbm, 161, rfl⟩
abbrev main_v128 : Ref sig .tc := ⟨.hbm, 162, rfl⟩
abbrev main_cst_30 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩

abbrev nD : Nat := 1
abbrev τ : Topo := Topo.v7x

variable {F : FTy → Type} [FloatOps F]

class Facts₀ : Prop where
  bcast_S1x512x512x31_S1x512x512x31x1_0_1_2_3 : S1x512x512x31.BroadcastsInDim S1x512x512x31x1 (![0, 1, 2, 3] : Fin 4 → Fin S1x512x512x31x1.rank)
  bcast_S8x512x512x31_S8x512x512x31x1_0_1_2_3 : S8x512x512x31.BroadcastsInDim S8x512x512x31x1 (![0, 1, 2, 3] : Fin 4 → Fin S8x512x512x31x1.rank)
  bcast_S1x512x512x31x1_S8x512x512x31x1_0_1_2_3_4 : S1x512x512x31x1.BroadcastsInDim S8x512x512x31x1 (![0, 1, 2, 3, 4] : Fin 5 → Fin S8x512x512x31x1.rank)
  bcast_S_S8x512x542x1 : S_.BroadcastsInDim S8x512x542x1 (![] : Fin 0 → Fin S8x512x542x1.rank)
  slices_S8x512x512x31x1_S8x512x512x1x1_0_0_0_0_0 : S8x512x512x31x1.Slices ![0, 0, 0, 0, 0] S8x512x512x1x1
  shapeCasts_S8x512x512x1x1_S8x512x512x1 : S8x512x512x1x1.ShapeCasts S8x512x512x1
  bcast_S_S1 : S_.BroadcastsInDim S1 (![] : Fin 0 → Fin S1.rank)
  slices_S8x512x512x31x1_S8x512x512x1x1_0_0_0_1_0 : S8x512x512x31x1.Slices ![0, 0, 0, 1, 0] S8x512x512x1x1
  slices_S8x512x512x31x1_S8x512x512x1x1_0_0_0_2_0 : S8x512x512x31x1.Slices ![0, 0, 0, 2, 0] S8x512x512x1x1
  slices_S8x512x512x31x1_S8x512x512x1x1_0_0_0_3_0 : S8x512x512x31x1.Slices ![0, 0, 0, 3, 0] S8x512x512x1x1
  slices_S8x512x512x31x1_S8x512x512x1x1_0_0_0_4_0 : S8x512x512x31x1.Slices ![0, 0, 0, 4, 0] S8x512x512x1x1
  slices_S8x512x512x31x1_S8x512x512x1x1_0_0_0_5_0 : S8x512x512x31x1.Slices ![0, 0, 0, 5, 0] S8x512x512x1x1
  slices_S8x512x512x31x1_S8x512x512x1x1_0_0_0_6_0 : S8x512x512x31x1.Slices ![0, 0, 0, 6, 0] S8x512x512x1x1
  slices_S8x512x512x31x1_S8x512x512x1x1_0_0_0_7_0 : S8x512x512x31x1.Slices ![0, 0, 0, 7, 0] S8x512x512x1x1
  slices_S8x512x512x31x1_S8x512x512x1x1_0_0_0_8_0 : S8x512x512x31x1.Slices ![0, 0, 0, 8, 0] S8x512x512x1x1
  slices_S8x512x512x31x1_S8x512x512x1x1_0_0_0_9_0 : S8x512x512x31x1.Slices ![0, 0, 0, 9, 0] S8x512x512x1x1
  slices_S8x512x512x31x1_S8x512x512x1x1_0_0_0_10_0 : S8x512x512x31x1.Slices ![0, 0, 0, 10, 0] S8x512x512x1x1
  slices_S8x512x512x31x1_S8x512x512x1x1_0_0_0_11_0 : S8x512x512x31x1.Slices ![0, 0, 0, 11, 0] S8x512x512x1x1
  slices_S8x512x512x31x1_S8x512x512x1x1_0_0_0_12_0 : S8x512x512x31x1.Slices ![0, 0, 0, 12, 0] S8x512x512x1x1
  slices_S8x512x512x31x1_S8x512x512x1x1_0_0_0_13_0 : S8x512x512x31x1.Slices ![0, 0, 0, 13, 0] S8x512x512x1x1
  slices_S8x512x512x31x1_S8x512x512x1x1_0_0_0_14_0 : S8x512x512x31x1.Slices ![0, 0, 0, 14, 0] S8x512x512x1x1
  slices_S8x512x512x31x1_S8x512x512x1x1_0_0_0_15_0 : S8x512x512x31x1.Slices ![0, 0, 0, 15, 0] S8x512x512x1x1
  slices_S8x512x512x31x1_S8x512x512x1x1_0_0_0_16_0 : S8x512x512x31x1.Slices ![0, 0, 0, 16, 0] S8x512x512x1x1
  slices_S8x512x512x31x1_S8x512x512x1x1_0_0_0_17_0 : S8x512x512x31x1.Slices ![0, 0, 0, 17, 0] S8x512x512x1x1
  slices_S8x512x512x31x1_S8x512x512x1x1_0_0_0_18_0 : S8x512x512x31x1.Slices ![0, 0, 0, 18, 0] S8x512x512x1x1
  slices_S8x512x512x31x1_S8x512x512x1x1_0_0_0_19_0 : S8x512x512x31x1.Slices ![0, 0, 0, 19, 0] S8x512x512x1x1
  slices_S8x512x512x31x1_S8x512x512x1x1_0_0_0_20_0 : S8x512x512x31x1.Slices ![0, 0, 0, 20, 0] S8x512x512x1x1
  slices_S8x512x512x31x1_S8x512x512x1x1_0_0_0_21_0 : S8x512x512x31x1.Slices ![0, 0, 0, 21, 0] S8x512x512x1x1
  slices_S8x512x512x31x1_S8x512x512x1x1_0_0_0_22_0 : S8x512x512x31x1.Slices ![0, 0, 0, 22, 0] S8x512x512x1x1
  slices_S8x512x512x31x1_S8x512x512x1x1_0_0_0_23_0 : S8x512x512x31x1.Slices ![0, 0, 0, 23, 0] S8x512x512x1x1
  slices_S8x512x512x31x1_S8x512x512x1x1_0_0_0_24_0 : S8x512x512x31x1.Slices ![0, 0, 0, 24, 0] S8x512x512x1x1
  slices_S8x512x512x31x1_S8x512x512x1x1_0_0_0_25_0 : S8x512x512x31x1.Slices ![0, 0, 0, 25, 0] S8x512x512x1x1
  slices_S8x512x512x31x1_S8x512x512x1x1_0_0_0_26_0 : S8x512x512x31x1.Slices ![0, 0, 0, 26, 0] S8x512x512x1x1
  slices_S8x512x512x31x1_S8x512x512x1x1_0_0_0_27_0 : S8x512x512x31x1.Slices ![0, 0, 0, 27, 0] S8x512x512x1x1
  slices_S8x512x512x31x1_S8x512x512x1x1_0_0_0_28_0 : S8x512x512x31x1.Slices ![0, 0, 0, 28, 0] S8x512x512x1x1
  slices_S8x512x512x31x1_S8x512x512x1x1_0_0_0_29_0 : S8x512x512x31x1.Slices ![0, 0, 0, 29, 0] S8x512x512x1x1
  slices_S8x512x512x31x1_S8x512x512x1x1_0_0_0_30_0 : S8x512x512x31x1.Slices ![0, 0, 0, 30, 0] S8x512x512x1x1
  reducesTo_S8x512x542x1_S_d0_1_2_3 : S8x512x542x1.ReducesTo [0, 1, 2, 3] S_
  h_S_ : 0 < S_.numel
  scatter_S8x512x542x1_S1_S8x512x512x1_0123_n_2_0_wf : ScatterDims.WF S8x512x542x1 S1 S8x512x512x1 [0, 1, 2, 3] [] [2] 0

variable [Facts₀]

def scatter_S8x512x542x1_S1_S8x512x512x1_0123_n_2_0 : ScatterDims S8x512x542x1 S1 S8x512x512x1 where
  updateWindowDims := [0, 1, 2, 3]
  insertedWindowDims := []
  scatterDimsToOperandDims := [2]
  indexVectorDim := 0
  wf := scatter_S8x512x542x1_S1_S8x512x512x1_0123_n_2_0_wf

class Facts : Prop extends Facts₀ where

variable [Facts]
-- ==== Proof.ShiftBlock.lean ====
/-
  One block of the shift-and-sum, at any float instance.

  The kernel's body forms the coded block `aux = x * h` over [128, 512, 31], fills its output block
  [1, 128, 542] with zeros, and then, for band `i = 0 … 30` in turn, adds band `i` of `aux` onto the
  columns `i … i + 511` of the output block: column `j` of row `p` receives `aux[p, j - i, i]`.
  `step i aux o` is one such update of a block `o`, `iter aux n` the block after the first `n` bands.
  `Good L o` says that a list of stores `L` (last store first) leaves exactly `o` and covers the block;
  `good_step` is one more store whose payload was computed from a load of what the earlier stores left.
-/
import Idealize.ShloMosaic.Lib.Pipeline.FrameBody
import Idealize.ShloMosaic.Lib.Pipeline.Value
import Idealize.ShloMosaic.Lib.ValueIdx

noncomputable section

namespace ShiftSum.Block

open Idealize.ShloMosaic Idealize.ShloMosaic.ValueIdx

variable {F : FTy → Type} [FloatOps F]

/-- The coded block: rows, columns, bands. -/
abbrev SA : Shape := ⟨3, ![128, 512, 31]⟩
/-- One band of it. -/
abbrev SB1 : Shape := ⟨3, ![128, 512, 1]⟩
/-- The same as a plane. -/
abbrev SP : Shape := ⟨2, ![128, 512]⟩
/-- The output block as a plane, -/
abbrev SZ : Shape := ⟨2, ![128, 542]⟩
/-- and with its leading unit axis. -/
abbrev SO : Shape := ⟨3, ![1, 128, 542]⟩
/-- The 512 columns one band lands on. -/
abbrev SL : Shape := ⟨3, ![1, 128, 512]⟩

theorem inb_at (i : ℕ) : ∀ a, (![0, 0, min i 30] : Fin 3 → ℕ) a + SL.size a ≤ SO.size a := by
  intro a
  fin_cases a
  · show 0 + 1 ≤ 1; omega
  · show 0 + 128 ≤ 128; omega
  · show min i 30 + 512 ≤ 542; omega

/-- The columns band `i` lands on: `i … i + 511` of every row (`i` capped at the last band). -/
abbrev rectAt (i : ℕ) : Rect SO := Rect.unit ![0, 0, min i 30] SL.size (inb_at i)

theorem slices_at (i : ℕ) : SA.Slices ![0, 0, min i 30] SB1 := by
  refine ⟨rfl, fun a => ?_⟩
  fin_cases a
  · show 0 + 128 ≤ 128; omega
  · show 0 + 512 ≤ 512; omega
  · show min i 30 + 1 ≤ 31; omega

theorem casts_L_P : SL.ShapeCasts SP := by decide
theorem casts_B_P : SB1.ShapeCasts SP := by decide
theorem casts_P_L : SP.ShapeCasts SL := by decide
theorem casts_Z_O : SZ.ShapeCasts SO := by decide

/-- Band `i` of the coded block. -/
def band (i : ℕ) (aux : FVec F SA .f32) : FVec F SB1 .f32 :=
  extractStridedSlice SB1 ![0, 0, min i 30] aux (slices_at i)

/-- What is stored back on band `i`'s columns: what was loaded from them plus the band. -/
def stepPay (i : ℕ) (aux : FVec F SA .f32) (v : FVec F SL .f32) : FVec F SL .f32 :=
  shapeCast SL (addf (shapeCast SP v casts_L_P) (shapeCast SP (band i aux) casts_B_P)) casts_P_L

/-- One band's update of the output block. -/
def step (i : ℕ) (aux : FVec F SA .f32) (o : SO.Idx → F .f32) : SO.Idx → F .f32 :=
  (rectAt i).overlay o (stepPay i aux (fun j => o ((rectAt i).toLoadRect.idx j)))

/-- The block of zeros the body starts from. -/
def zeroBlock : SO.Idx → F .f32 :=
  shapeCast SO (broadcast SZ (Scalar.ofBits .f32 0x00000000#32 : F .f32)) casts_Z_O

/-- The output block after the first `n` bands. -/
def iter (aux : FVec F SA .f32) : ℕ → SO.Idx → F .f32
  | 0 => zeroBlock
  | n + 1 => step n aux (iter aux n)

theorem iter_succ (aux : FVec F SA .f32) (n : ℕ) : iter aux (n + 1) = step n aux (iter aux n) := rfl

/-- A list of stores (the last one first) leaves `o` in the block, whatever it held before. -/
structure Good (L : List (View.Piece (Elt F) SO .f32)) (o : SO.Idx → F .f32) : Prop where
  canon_eq : View.canon L = o
  cover : ∀ y : SO.Idx, ∃ p ∈ L, y ∈ p.1.set

theorem inb_whole : ∀ a, (![0, 0, 0] : Fin 3 → ℕ) a + SO.size a ≤ SO.size a := by decide

/-- The zero fill is a store of the whole block. -/
theorem good_base (inb : ∀ a, (![0, 0, 0] : Fin 3 → ℕ) a + SO.size a ≤ SO.size a) (z : SO.Idx → F .f32)
    (hz : z = zeroBlock) :
    Good (F := F) [⟨Rect.unit ![0, 0, 0] SO.size inb, z⟩] zeroBlock := by
  subst hz
  have h0 : (![0, 0, 0] : Fin 3 → ℕ) = fun _ => 0 := by
    funext a; fin_cases a <;> rfl
  refine ⟨?_, fun y => ⟨_, List.mem_singleton_self _, ?_⟩⟩
  · exact View.canon_unit_zero (S := SO) h0 inb _
  · rw [Rect.mem_set_unit]
    intro a
    refine ⟨?_, ?_⟩
    · rw [h0]; exact Nat.zero_le _
    · rw [h0]; simpa using (y a).isLt

/-- One more store on band `i`'s columns, of a payload computed from a load of those columns after the earlier
    stores: the block is updated by `step`. -/
theorem good_step {sig : RefSig} {κ : Kind} {sp : Space} (i : ℕ) (v : View sig κ sp SO .f32)
    (L : List (View.Piece (Elt F) SO .f32)) (aux : FVec F SA .f32) (o : SO.Idx → F .f32)
    (r : Rect SO) (P : r.shape.Idx → F .f32)
    (hr : r = rectAt i)
    (hP : HEq P (stepPay i aux (v.readCov L (rectAt i).toLoadRect)))
    (hL : Good L o) : Good (⟨r, P⟩ :: L) (step i aux o) := by
  subst hr
  obtain rfl := eq_of_heq hP
  refine ⟨?_, fun y => ?_⟩
  · have h1 : v.readCov L (rectAt i).toLoadRect = fun j => o ((rectAt i).toLoadRect.idx j) := by
      rw [View.readCov_eq_canon', hL.canon_eq]
    rw [View.canon_cons, h1, hL.canon_eq]
    unfold step
    rfl
  · obtain ⟨p, hp, hy⟩ := hL.cover y
    exact ⟨p, List.mem_cons_of_mem _ hp, hy⟩

end ShiftSum.Block

end
-- ==== Proof.BodyBits.lean ====
/-
  The kernel body at one grid point, and the pipeline's run over it.

  At a point the body is handed its block of the cubes `x` and of the aperture `h` (each [1, 128, 512, 31]) and leaves in
  the output block [1, 128, 542] the shift-and-sum of their product: zeros, then band `i` of `x * h` added onto columns
  `i … i + 511`, for `i = 0 … 30` in turn (`ShiftSum.Block.iter … 31`). Each of the 31 updates loads the columns the
  earlier stores wrote, so the block is read off the list of stores one store at a time (`Block.good_step`). With the
  output block named, the pipeline's proof data say what every window's buffer holds after every point, and the run of
  @main ends with the output array at what the points wrote back and the argument arrays unchanged.
-/
import proofs.«149298_j38439957299668_1_alg».proof.Proof.Gen.Kernel.Frame
import proofs.«149298_j38439957299668_1_alg».proof.Proof.Gen.Kernel.Skeleton
import proofs.«149298_j38439957299668_1_alg».proof.Proof.ShiftBlock

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open ShiftSum

variable {F : FTy → Type} [FloatOps F]

local notation "𝕄" => MT nD τ sig Unit (Elt F) ℕ (UR sig nD τ) ℕ

/-- The output block the body leaves, from its two input blocks: all 31 bands of their product laid down. -/
def shiftOut (x0 x1 : Vec F S1x128x512x31 .f32) : Vec F S1x128x542 .f32 :=
  Block.iter (k0_pay2 x0 x1) 31

/-- The product of the two input blocks as the body first reads them (each a load of a whole buffer). -/
abbrev codedOf (arg2 : Memref sig .tc .vmem S1x128x512x31 .f32) (harg2 : arg2.IsWhole)
    (arg3 : Memref sig .tc .vmem S1x128x512x31 .f32) (harg3 : arg3.IsWhole) (x0 x1 : Vec F S1x128x512x31 .f32) :
    FVec F S128x512x31 .f32 :=
  k0_pay2
    (View.readAt (Elt F) arg2.view (Rect.unit (s := S1x128x512x31) ![0, 0, 0, 0] S1x128x512x31.size inb_S1x128x512x31_S1x128x512x31_0_0_0_0).toLoadRect (harg2.unread x0))
    (View.readAt (Elt F) arg3.view (Rect.unit (s := S1x128x512x31) ![0, 0, 0, 0] S1x128x512x31.size inb_S1x128x512x31_S1x128x512x31_0_0_0_0).toLoadRect (harg3.unread x1))

/-- A load of a whole buffer reads its contents. -/
theorem readAt_whole (arg : Memref sig .tc .vmem S1x128x512x31 .f32) (f : arg.view.ty.Contents (Elt F))
    (x : Vec F S1x128x512x31 .f32) (hf : View.read (Elt F) arg.view f = x) :
    View.readAt (Elt F) arg.view (Rect.unit (s := S1x128x512x31) ![0, 0, 0, 0] S1x128x512x31.size inb_S1x128x512x31_S1x128x512x31_0_0_0_0).toLoadRect f = x := by
  rw [View.readAt_eq_ld, hf]
  exact View.ld_unit_zero (S := S1x128x512x31) (by funext a; fin_cases a <;> rfl) _ _

/-- What a list of stores that is good for `iter aux 31` leaves in the buffer, read back. -/
theorem read_of_good {sig' : RefSig} {κ : Kind} {sp : Space} (v : View sig' κ sp Block.SO .f32) (f : v.ty.Contents (Elt F))
    (L : List (View.Piece (Elt F) Block.SO .f32)) (aux : FVec F Block.SA .f32) (o : Block.SO.Idx → F .f32)
    (h : Block.Good L (Block.iter aux 31)) (ho : Block.iter aux 31 = o) :
    v.read (Elt F) (v.writes (Elt F) f L) = o :=
  ((View.read_writes_eq_canon v f L h.cover).trans h.canon_eq).trans ho

set_option maxHeartbeats 4000000 in
/-- The body's triple: on whole staging memrefs, the inputs' at their contents and the output's at anything, the body
    runs to the continuation holding the inputs' as they were and the output's at `shiftOut` of the inputs'. -/
theorem kernelRun (c : Dev nD) (i : grid0.Coords) (arg2 : Memref sig .tc .vmem S1x128x512x31 .f32) (harg2 : arg2.IsWhole) (arg3 : Memref sig .tc .vmem S1x128x512x31 .f32) (harg3 : arg3.IsWhole) (arg4 : Memref sig .tc .vmem S1x128x542 .f32) (harg4 : arg4.IsWhole)
    (x0 : Vec F S1x128x512x31 .f32) (x1 : Vec F S1x128x512x31 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ owns (c : Thread nD τ) arg4 fullShare (shiftOut x0 x1)) -∗ K ⟨⟩))
          ⊢ wp frame (wpE (defs₀ (F := F)) Variants.none c none) E (cc0__shift_sum_kernel i arg2 harg2 arg3 harg3 arg4 harg4) K := by
    intro E K
    simp only [cc0__shift_sum_kernel_eq_skeleton]; unfold cc0__shift_sum_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    -- the stores, last first: band 30's on top of band 29's … on top of the zero fill
    refine read_of_good _ _ _ (codedOf arg2 harg2 arg3 harg3 x0 x1) _ ?_
      (by unfold shiftOut codedOf; rw [readAt_whole arg2 _ x0 hf0, readAt_whole arg3 _ x1 hf1])
    iterate 31 (refine Block.good_step _ arg4.view _ _ _ _ _ rfl HEq.rfl ?_)
    exact Block.good_base _ _ rfl

variable (m : (ℓ : Loc nD τ sig) → Buf (Elt F) ℓ) (ρ : Dev nD → PrngReg)

/-! ## The pipeline's proof data -/

/-- The proof data of the one pipeline on core `c`: the arrays as the region finds them; after the body at point `t`
    each input's buffer at its block and the output's at `shiftOut` of the two input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => shiftOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = shiftOut (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply ((kernelRun c (grid0.coords t) _ _ _ _ _ _ (iblk m c 0 t) (iblk m c 1 t)) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    proof data say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyIdeal.lean ====
/-
  The kernel body at one grid point, and the pipeline's run over it.

  At a point the body is handed its block of the cubes `x` and of the aperture `h` (each [1, 128, 512, 31]) and leaves in
  the output block [1, 128, 542] the shift-and-sum of their product: zeros, then band `i` of `x * h` added onto columns
  `i … i + 511`, for `i = 0 … 30` in turn (`ShiftSum.Block.iter … 31`). Each of the 31 updates loads the columns the
  earlier stores wrote, so the block is read off the list of stores one store at a time (`Block.good_step`). With the
  output block named, the pipeline's proof data say what every window's buffer holds after every point, and the run of
  @main ends with the output array at what the points wrote back and the argument arrays unchanged.
-/
import proofs.«149298_j38439957299668_1_alg».proof.Proof.Gen.KernelIdeal.Frame
import proofs.«149298_j38439957299668_1_alg».proof.Proof.Gen.KernelIdeal.Skeleton
import proofs.«149298_j38439957299668_1_alg».proof.Proof.ShiftBlock

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ShiftSum

variable {F : FTy → Type} [FloatOps F]

local notation "𝕄" => MT nD τ sig Unit (Elt F) ℕ (UR sig nD τ) ℕ

/-- The output block the body leaves, from its two input blocks: all 31 bands of their product laid down. -/
def shiftOut (x0 x1 : Vec F S1x128x512x31 .f32) : Vec F S1x128x542 .f32 :=
  Block.iter (k0_pay2 x0 x1) 31

/-- The product of the two input blocks as the body first reads them (each a load of a whole buffer). -/
abbrev codedOf (arg2 : Memref sig .tc .vmem S1x128x512x31 .f32) (harg2 : arg2.IsWhole)
    (arg3 : Memref sig .tc .vmem S1x128x512x31 .f32) (harg3 : arg3.IsWhole) (x0 x1 : Vec F S1x128x512x31 .f32) :
    FVec F S128x512x31 .f32 :=
  k0_pay2
    (View.readAt (Elt F) arg2.view (Rect.unit (s := S1x128x512x31) ![0, 0, 0, 0] S1x128x512x31.size inb_S1x128x512x31_S1x128x512x31_0_0_0_0).toLoadRect (harg2.unread x0))
    (View.readAt (Elt F) arg3.view (Rect.unit (s := S1x128x512x31) ![0, 0, 0, 0] S1x128x512x31.size inb_S1x128x512x31_S1x128x512x31_0_0_0_0).toLoadRect (harg3.unread x1))

/-- A load of a whole buffer reads its contents. -/
theorem readAt_whole (arg : Memref sig .tc .vmem S1x128x512x31 .f32) (f : arg.view.ty.Contents (Elt F))
    (x : Vec F S1x128x512x31 .f32) (hf : View.read (Elt F) arg.view f = x) :
    View.readAt (Elt F) arg.view (Rect.unit (s := S1x128x512x31) ![0, 0, 0, 0] S1x128x512x31.size inb_S1x128x512x31_S1x128x512x31_0_0_0_0).toLoadRect f = x := by
  rw [View.readAt_eq_ld, hf]
  exact View.ld_unit_zero (S := S1x128x512x31) (by funext a; fin_cases a <;> rfl) _ _

/-- What a list of stores that is good for `iter aux 31` leaves in the buffer, read back. -/
theorem read_of_good {sig' : RefSig} {κ : Kind} {sp : Space} (v : View sig' κ sp Block.SO .f32) (f : v.ty.Contents (Elt F))
    (L : List (View.Piece (Elt F) Block.SO .f32)) (aux : FVec F Block.SA .f32) (o : Block.SO.Idx → F .f32)
    (h : Block.Good L (Block.iter aux 31)) (ho : Block.iter aux 31 = o) :
    v.read (Elt F) (v.writes (Elt F) f L) = o :=
  ((View.read_writes_eq_canon v f L h.cover).trans h.canon_eq).trans ho

set_option maxHeartbeats 4000000 in
/-- The body's triple: on whole staging memrefs, the inputs' at their contents and the output's at anything, the body
    runs to the continuation holding the inputs' as they were and the output's at `shiftOut` of the inputs'. -/
theorem kernelRun (c : Dev nD) (i : grid0.Coords) (arg2 : Memref sig .tc .vmem S1x128x512x31 .f32) (harg2 : arg2.IsWhole) (arg3 : Memref sig .tc .vmem S1x128x512x31 .f32) (harg3 : arg3.IsWhole) (arg4 : Memref sig .tc .vmem S1x128x542 .f32) (harg4 : arg4.IsWhole)
    (x0 : Vec F S1x128x512x31 .f32) (x1 : Vec F S1x128x512x31 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ owns (c : Thread nD τ) arg4 fullShare (shiftOut x0 x1)) -∗ K ⟨⟩))
          ⊢ wp frame (wpE (defs₀ (F := F)) Variants.none c none) E (cc0__shift_sum_kernel i arg2 harg2 arg3 harg3 arg4 harg4) K := by
    intro E K
    simp only [cc0__shift_sum_kernel_eq_skeleton]; unfold cc0__shift_sum_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    -- the stores, last first: band 30's on top of band 29's … on top of the zero fill
    refine read_of_good _ _ _ (codedOf arg2 harg2 arg3 harg3 x0 x1) _ ?_
      (by unfold shiftOut codedOf; rw [readAt_whole arg2 _ x0 hf0, readAt_whole arg3 _ x1 hf1])
    iterate 31 (refine Block.good_step _ arg4.view _ _ _ _ _ rfl HEq.rfl ?_)
    exact Block.good_base _ _ rfl

variable (m : (ℓ : Loc nD τ sig) → Buf (Elt F) ℓ) (ρ : Dev nD → PrngReg)

/-! ## The pipeline's proof data -/

/-- The proof data of the one pipeline on core `c`: the arrays as the region finds them; after the body at point `t`
    each input's buffer at its block and the output's at `shiftOut` of the two input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => shiftOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = shiftOut (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply ((kernelRun c (grid0.coords t) _ _ _ _ _ _ (iblk m c 0 t) (iblk m c 1 t)) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    proof data say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The optical forward model as one function of its two arguments, over the extended reals.

  `X` is the stack of eight hyperspectral cubes [8, 512, 512, 31] (image, row, column, band), `H` the coded aperture
  [1, 512, 512, 31]. The coded cube is their product entry by entry (the aperture shared by the images). On the
  detector, band `n` of a row lands shifted right by `n` pixels, and the bands add up: detector pixel `j` of row `m`
  of image `b` receives, from band `n`, the coded entry at column `j - n` when `n ≤ j < n + 512`. The sum is taken band by
  band from zero in increasing `n` (`partialSum`), which is the order both programs add in. The result is the detector
  image divided by its largest pixel (`peak`), with a trailing unit axis; the second result is the aperture with a
  trailing unit axis.
-/
import Idealize.ShloMosaic.PureOps.Ideal
import Idealize.ShloMosaic.PureOps.Ideal.Laws
import Idealize.ShloMosaic.Lib.ValueIdx

noncomputable section

namespace ShiftSum

open Idealize.ShloMosaic Idealize.ShloMosaic.ValueIdx

/-- The cubes: image, row, column, band. -/
abbrev SX : Shape := ⟨4, ![8, 512, 512, 31]⟩
/-- The aperture. -/
abbrev SH : Shape := ⟨4, ![1, 512, 512, 31]⟩
/-- The detector images, -/
abbrev SY : Shape := ⟨3, ![8, 512, 542]⟩
/-- with a trailing unit axis. -/
abbrev SY1 : Shape := ⟨4, ![8, 512, 542, 1]⟩
/-- The aperture with a trailing unit axis. -/
abbrev SH5 : Shape := ⟨5, ![1, 512, 512, 31, 1]⟩

/-- An entry of the coded cube. -/
def coded (X : SX.Idx → EReal) (H : SH.Idx → EReal) (b : Fin 8) (m q : Fin 512) (l : Fin 31) : EReal :=
  X (ix4 b m q l) * H (ix4 0 m q l)

/-- Detector pixel `j` of row `m` of image `b` after the first `n` bands. -/
def partialSum (X : SX.Idx → EReal) (H : SH.Idx → EReal) : ℕ → Fin 8 → Fin 512 → Fin 542 → EReal
  | 0, _, _, _ => 0
  | n + 1, b, m, j =>
    if h : n < 31 ∧ n ≤ j.val ∧ j.val < n + 512 then
      partialSum X H n b m j + coded X H b m ⟨j.val - n, by omega⟩ ⟨n, h.1⟩
    else partialSum X H n b m j

theorem partialSum_zero (X : SX.Idx → EReal) (H : SH.Idx → EReal) (b : Fin 8) (m : Fin 512) (j : Fin 542) :
    partialSum X H 0 b m j = 0 := rfl

theorem partialSum_succ (X : SX.Idx → EReal) (H : SH.Idx → EReal) (n : ℕ) (b : Fin 8) (m : Fin 512) (j : Fin 542) :
    partialSum X H (n + 1) b m j =
      if h : n < 31 ∧ n ≤ j.val ∧ j.val < n + 512 then
        partialSum X H n b m j + coded X H b m ⟨j.val - n, by omega⟩ ⟨n, h.1⟩
      else partialSum X H n b m j := rfl

/-- The detector images: all 31 bands laid down. -/
def detector (X : SX.Idx → EReal) (H : SH.Idx → EReal) : SY.Idx → EReal :=
  fun y => partialSum X H 31 (y 0) (y 1) (y 2)

/-- The largest detector pixel over all images (from minus infinity). -/
def peak (X : SX.Idx → EReal) (H : SH.Idx → EReal) : EReal :=
  (Finset.univ : Finset SY.Idx).fold (FloatOps.maximumf (F := Ideal) (φ := .f32))
    (Ideal.ofBits .f32 0xFF800000#32) (detector X H)

/-- The first result: every detector pixel divided by the largest. -/
def normalized (X : SX.Idx → EReal) (H : SH.Idx → EReal) : SY1.Idx → EReal :=
  fun y => Ideal.div (partialSum X H 31 (y 0) (y 1) (y 2)) (peak X H)

theorem bcast_H5 : SH.BroadcastsInDim SH5 (![0, 1, 2, 3] : Fin 4 → Fin SH5.rank) := by decide

/-- The second result: the aperture with a trailing unit axis. -/
def aperture5 (H : SH.Idx → EReal) : SH5.Idx → EReal :=
  broadcastInDim SH5 ![0, 1, 2, 3] bcast_H5 H

end ShiftSum

end
-- ==== Proof.ShiftBlockValue.lean ====
/-
  The shift-and-sum of one block over the extended reals, entry by entry.

  Over the extended reals the block after the first `n` bands has, at row `p` and detector column `j`, the sum taken
  band by band from zero of the coded entries `aux[p, j - i, i]` over the bands `i < n` with `i ≤ j < i + 512`
  (`blockSum`): band `i`'s update touches exactly the columns `i … i + 511`, where it adds the band's entry at column
  `j - i`, and leaves the other columns as they were.
-/
import proofs.«149298_j38439957299668_1_alg».proof.Proof.ShiftBlock
import Idealize.ShloMosaic.PureOps.Ideal
import Idealize.ShloMosaic.PureOps.Ideal.Laws
import Idealize.ShloMosaic.Lib.Pipeline.Value
import Idealize.ShloMosaic.Lib.ValueLayout

noncomputable section

namespace ShiftSum.Block

open Idealize.ShloMosaic Idealize.ShloMosaic.ValueIdx

/-- Row `p`, detector column `j` of the block after the first `n` bands. -/
def blockSum (aux : SA.Idx → EReal) : ℕ → Fin 128 → Fin 542 → EReal
  | 0, _, _ => 0
  | n + 1, p, j =>
    if h : n < 31 ∧ n ≤ j.val ∧ j.val < n + 512 then
      blockSum aux n p j + aux (ix3 p ⟨j.val - n, by omega⟩ ⟨n, h.1⟩)
    else blockSum aux n p j

theorem blockSum_zero (aux : SA.Idx → EReal) (p : Fin 128) (j : Fin 542) : blockSum aux 0 p j = 0 := rfl

theorem blockSum_succ (aux : SA.Idx → EReal) (n : ℕ) (p : Fin 128) (j : Fin 542) :
    blockSum aux (n + 1) p j =
      if h : n < 31 ∧ n ≤ j.val ∧ j.val < n + 512 then
        blockSum aux n p j + aux (ix3 p ⟨j.val - n, by omega⟩ ⟨n, h.1⟩)
      else blockSum aux n p j := rfl

/-- The payload stored on band `i`'s columns, at row `p` and column `q` of the 512: what was loaded there plus the
    band's entry. -/
theorem stepPay_apply (i : ℕ) (hi : i ≤ 30) (aux : FVec Ideal SA .f32) (v : FVec Ideal SL .f32) (p : Fin 128) (q : Fin 512) :
    stepPay i aux v (ix3 0 p q) = v (ix3 0 p q) + aux (ix3 p q ⟨i, by omega⟩) := by
  have hmin : min i 30 = i := Nat.min_eq_left hi
  unfold stepPay
  rw [shapeCast_ab_1ab_apply _ casts_P_L 0 p q, addf_apply, shapeCast_1ab_ab_apply v casts_L_P p q]
  congr 1
  rw [shapeCast_apply (band i aux) casts_B_P (ix2 p q) (ix3 p q (0 : Fin 1))
    (by rw [Shape.rowMajor_val_three, Shape.rowMajor_val_two]
        show (p.val * 512 + q.val) * 1 + 0 = p.val * 512 + q.val
        omega)]
  unfold band extractStridedSlice
  refine congrArg aux (funext fun a => Fin.ext ?_)
  match a with
  | ⟨0, _⟩ => show 0 + p.val = p.val; omega
  | ⟨1, _⟩ => show 0 + q.val = q.val; omega
  | ⟨2, _⟩ => show min i 30 + 0 = i; omega

/-- One band's update at an entry. -/
theorem step_apply (i : ℕ) (hi : i ≤ 30) (aux : FVec Ideal SA .f32) (o : SO.Idx → EReal) (p : Fin 128) (j : Fin 542) :
    step (F := Ideal) i aux o (ix3 0 p j) =
      if h : i ≤ j.val ∧ j.val < i + 512 then o (ix3 0 p j) + aux (ix3 p ⟨j.val - i, by omega⟩ ⟨i, by omega⟩)
      else o (ix3 0 p j) := by
  have hmin : min i 30 = i := Nat.min_eq_left hi
  unfold step
  by_cases h : i ≤ j.val ∧ j.val < i + 512
  · rw [dif_pos h]
    have he : (ix3 (0 : Fin 1) p j : SO.Idx) = (rectAt i).emb (ix3 (0 : Fin 1) p (⟨j.val - i, by omega⟩ : Fin 512)) := by
      funext a
      apply Fin.ext
      match a with
      | ⟨0, _⟩ => show (0 : ℕ) = 0 + 1 * 0; omega
      | ⟨1, _⟩ => show p.val = 0 + 1 * p.val; omega
      | ⟨2, _⟩ => show j.val = min i 30 + 1 * (j.val - i); omega
    rw [he, Rect.overlay_emb]
    exact stepPay_apply i hi aux _ p ⟨j.val - i, by omega⟩
  · rw [dif_neg h]
    refine Rect.overlay_of_not_mem _ _ _ ?_
    rw [Rect.mem_set_unit]
    intro hm
    have h2 := hm (2 : Fin 3)
    have e1 : ((![0, 0, min i 30] : Fin 3 → ℕ) 2) = min i 30 := rfl
    have e2 : (SL.size (2 : Fin 3)) = 512 := rfl
    have e3 : ((ix3 (0 : Fin 1) p j : SO.Idx) (2 : Fin 3)).val = j.val := rfl
    rw [e1, e2, e3] at h2
    omega

/-- The block after the first `n` bands, entry by entry. -/
theorem iter_apply (aux : FVec Ideal SA .f32) (n : ℕ) (hn : n ≤ 31) (p : Fin 128) (j : Fin 542) :
    iter (F := Ideal) aux n (ix3 0 p j) = blockSum aux n p j := by
  induction n with
  | zero =>
    show zeroBlock (F := Ideal) (ix3 0 p j) = 0
    unfold zeroBlock
    rw [shapeCast_ab_1ab_apply _ casts_Z_O 0 p j]
    show Ideal.ofBits .f32 0x00000000#32 = 0
    exact Ideal.ofBits_zero_f32
  | succ n ih =>
    have hn' : n ≤ 30 := by omega
    rw [iter_succ, step_apply n hn' aux _ p j, blockSum_succ, ih (by omega)]
    by_cases h : n ≤ j.val ∧ j.val < n + 512
    · rw [dif_pos h, dif_pos ⟨by omega, h.1, h.2⟩]
    · rw [dif_neg h, dif_neg (fun h' => h ⟨h'.2.1, h'.2.2⟩)]

end ShiftSum.Block

end
-- ==== Proof.KernelValue.lean ====
/-
  The idealized kernel's results, read off its run: the detector images of `ShiftSum` divided by their largest pixel,
  and the aperture with a trailing unit axis.

  At the grid point of image `b` and row tile `r` the body multiplies its block of the cubes by its block of the aperture
  — the specification's coded cube on rows `128 r … 128 r + 127` of image `b` — and lays the 31 bands down shifted, so
  its output block holds the specification's detector pixels of those rows. The 32 blocks tile the detector array, which
  therefore ends as the specification's detector images. The lines after the region take the maximum over every pixel
  from minus infinity, divide by it, and add a trailing unit axis to the quotient and to the aperture.
-/
import proofs.«149298_j38439957299668_1_alg».proof.Proof.BodyIdeal
import proofs.«149298_j38439957299668_1_alg».proof.Proof.Spec
import proofs.«149298_j38439957299668_1_alg».proof.Proof.ShiftBlockValue
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.Body
open ShiftSum

section Lemmas

/-! ## The index maps over the grid -/

/-- The three printed index maps, decided over the 32 points: the cubes' block follows the output's image and row
    tile, the aperture's block its row tile alone, every other block index is zero, and the output's image and row
    tile stay in their ranges. -/
theorem idx_facts : ∀ t : Fin cfg0.N,
    win0_0.index t (0 : Fin 4) = win0_2.index t (0 : Fin 3)
    ∧ win0_0.index t (1 : Fin 4) = win0_2.index t (1 : Fin 3)
    ∧ win0_0.index t (2 : Fin 4) = 0
    ∧ win0_0.index t (3 : Fin 4) = 0
    ∧ win0_1.index t (0 : Fin 4) = 0
    ∧ win0_1.index t (1 : Fin 4) = win0_2.index t (1 : Fin 3)
    ∧ win0_1.index t (2 : Fin 4) = 0
    ∧ win0_1.index t (3 : Fin 4) = 0
    ∧ win0_2.index t (0 : Fin 3) < 8
    ∧ win0_2.index t (1 : Fin 3) < 4
    ∧ win0_2.index t (2 : Fin 3) = 0 :=
  (by decide +kernel : ∀ t : Fin grid0.N, _)

/-- Every image and row tile is some point's. -/
theorem idx_onto : ∀ (b : Fin 8) (r : Fin 4), ∃ t : Fin cfg0.N, win0_2.index t = ![b.val, r.val, 0] :=
  (by decide +kernel : ∀ (b : Fin 8) (r : Fin 4), ∃ t : Fin grid0.N, win0_2.index t = ![b.val, r.val, 0])

/-! ## The coded block at an index -/

/-- The product of the two input blocks at row `p`, column `q`, band `l`. -/
theorem pay2_apply (x0 x1 : Vec Ideal S1x128x512x31 .f32) (p : Fin 128) (q : Fin 512) (l : Fin 31) :
    k0_pay2 x0 x1 (ix3 p q l) = x0 (ix4 (0 : Fin 1) p q l) * x1 (ix4 (0 : Fin 1) p q l) := by
  unfold k0_pay2
  rw [mulf_apply, shapeCast_1abc_abc_apply, shapeCast_1abc_abc_apply]

variable (m : (ℓ : Loc nD τ sig) → Buf (Elt Ideal) ℓ)

/-- The cubes' block at a point whose output block is image `b`, row tile `r`: rows `128 r …` of image `b`. -/
theorem iblk0_apply (c : Dev nD) (t : Fin cfg0.N) (b : Fin 8) (r : Fin 4)
    (hb : win0_2.index t (0 : Fin 3) = b.val) (hr : win0_2.index t (1 : Fin 3) = r.val)
    (p : Fin 128) (q : Fin 512) (l : Fin 31) :
    iblk m c 0 t (ix4 (0 : Fin 1) p q l)
      = m ((c.tc : Thread nD τ).loc main_arg0) (ix4 b (⟨128 * r.val + p.val, by omega⟩ : Fin 512) q l) := by
  obtain ⟨e0, e1, e2, e3, -⟩ := idx_facts t
  show V m c main_arg0 (((cfg0.win 0).blk t).view.emb (ix4 (0 : Fin 1) p q l)) = _
  rw [V_main_arg0]
  congr 1
  funext a; apply Fin.ext
  match a with
  | ⟨0, _⟩ => show win0_0.index t (0 : Fin 4) * 1 + 1 * 0 = b.val; omega
  | ⟨1, _⟩ => show win0_0.index t (1 : Fin 4) * 128 + 1 * p.val = 128 * r.val + p.val; omega
  | ⟨2, _⟩ => show win0_0.index t (2 : Fin 4) * 512 + 1 * q.val = q.val; omega
  | ⟨3, _⟩ => show win0_0.index t (3 : Fin 4) * 31 + 1 * l.val = l.val; omega

/-- The aperture's block at that point: rows `128 r …` of the one aperture. -/
theorem iblk1_apply (c : Dev nD) (t : Fin cfg0.N) (r : Fin 4)
    (hr : win0_2.index t (1 : Fin 3) = r.val)
    (p : Fin 128) (q : Fin 512) (l : Fin 31) :
    iblk m c 1 t (ix4 (0 : Fin 1) p q l)
      = m ((c.tc : Thread nD τ).loc main_arg1) (ix4 (0 : Fin 1) (⟨128 * r.val + p.val, by omega⟩ : Fin 512) q l) := by
  obtain ⟨-, -, -, -, e0, e1, e2, e3, -⟩ := idx_facts t
  show V m c main_arg1 (((cfg0.win 1).blk t).view.emb (ix4 (0 : Fin 1) p q l)) = _
  rw [V_main_arg1]
  congr 1
  funext a; apply Fin.ext
  match a with
  | ⟨0, _⟩ => show win0_1.index t (0 : Fin 4) * 1 + 1 * 0 = 0; omega
  | ⟨1, _⟩ => show win0_1.index t (1 : Fin 4) * 128 + 1 * p.val = 128 * r.val + p.val; omega
  | ⟨2, _⟩ => show win0_1.index t (2 : Fin 4) * 512 + 1 * q.val = q.val; omega
  | ⟨3, _⟩ => show win0_1.index t (3 : Fin 4) * 31 + 1 * l.val = l.val; omega

/-- The coded block at that point is the specification's coded cube on its rows. -/
theorem coded_apply (c : Dev nD) (t : Fin cfg0.N) (b : Fin 8) (r : Fin 4)
    (hb : win0_2.index t (0 : Fin 3) = b.val) (hr : win0_2.index t (1 : Fin 3) = r.val)
    (p : Fin 128) (q : Fin 512) (l : Fin 31) :
    k0_pay2 (iblk m c 0 t) (iblk m c 1 t) (ix3 p q l)
      = coded (m ((c.tc : Thread nD τ).loc main_arg0)) (m ((c.tc : Thread nD τ).loc main_arg1)) b
          (⟨128 * r.val + p.val, by omega⟩ : Fin 512) q l := by
  rw [pay2_apply, iblk0_apply m c t b r hb hr, iblk1_apply m c t r hr]
  rfl

/-! ## The output block is the specification's partial sum -/

/-- A block whose coded entries are the specification's on rows `row p` of image `b` accumulates, band by band, the
    specification's partial sums on those rows. -/
theorem blockSum_eq (aux : Block.SA.Idx → EReal) (X : SX.Idx → EReal) (H : SH.Idx → EReal) (b : Fin 8)
    (row : Fin 128 → Fin 512)
    (haux : ∀ (p : Fin 128) (q : Fin 512) (l : Fin 31), aux (ix3 p q l) = coded X H b (row p) q l) :
    ∀ (n : ℕ) (p : Fin 128) (j : Fin 542), Block.blockSum aux n p j = partialSum X H n b (row p) j
  | 0, p, j => by rw [Block.blockSum_zero, partialSum_zero]
  | n + 1, p, j => by
    rw [Block.blockSum_succ, partialSum_succ, blockSum_eq aux X H b row haux n p j]
    split
    · rw [haux]
    · rfl

/-- What the body leaves in the output block at a point whose output block is image `b`, row tile `r`: the detector
    pixels of rows `128 r …` of image `b`. -/
theorem shiftOut_apply (c : Dev nD) (t : Fin cfg0.N) (b : Fin 8) (r : Fin 4)
    (hb : win0_2.index t (0 : Fin 3) = b.val) (hr : win0_2.index t (1 : Fin 3) = r.val)
    (p : Fin 128) (j : Fin 542) :
    shiftOut (iblk m c 0 t) (iblk m c 1 t) (ix3 (0 : Fin 1) p j)
      = partialSum (m ((c.tc : Thread nD τ).loc main_arg0)) (m ((c.tc : Thread nD τ).loc main_arg1)) 31 b
          (⟨128 * r.val + p.val, by omega⟩ : Fin 512) j := by
  unfold shiftOut
  rw [Block.iter_apply _ 31 (Nat.le_refl _)]
  exact blockSum_eq _ _ _ b (fun p => (⟨128 * r.val + p.val, by omega⟩ : Fin 512))
    (fun p q l => coded_apply m c t b r hb hr p q l) 31 p j

/-! ## From the blocks to the detector array -/

/-- What a point writes back is its block of the specification's detector images. -/
theorem flushed_eq (c : Dev nD) (t : Fin cfg0.N) :
    (dats m 0 c).flushed 2 t = ((cfg0.win 2).blk t).view.read (Elt Ideal)
      (detector (m ((c.tc : Thread nD τ).loc main_arg0)) (m ((c.tc : Thread nD τ).loc main_arg1))) := by
  show (cfg0.win 2).cut (grid0.coords t) ((dats m 0 c).after 2 t) = _
  rw [after0_2]
  obtain ⟨-, -, -, -, -, -, -, -, hB, hR, h2⟩ := idx_facts t
  funext y
  obtain ⟨u, p, j, rfl⟩ : ∃ (u : Fin 1) (p : Fin 128) (j : Fin 542), y = ix3 u p j :=
    ⟨y 0, y 1, y 2, eq_ix3 (n0 := 1) (n1 := 128) (n2 := 542) y⟩
  obtain rfl : u = 0 := Subsingleton.elim _ _
  show shiftOut (iblk m c 0 t) (iblk m c 1 t) ((cfg0.win 2).xinj (grid0.coords t) (ix3 (0 : Fin 1) p j))
    = detector _ _ (((cfg0.win 2).blk t).view.emb (ix3 (0 : Fin 1) p j))
  have hx : (cfg0.win 2).xinj (grid0.coords t) (ix3 (0 : Fin 1) p j) = ix3 (0 : Fin 1) p j := by
    funext a; apply Fin.ext
    match a with
    | ⟨0, _⟩ => rfl
    | ⟨1, _⟩ => rfl
    | ⟨2, _⟩ => rfl
  rw [hx, shiftOut_apply m c t ⟨_, hB⟩ ⟨_, hR⟩ rfl rfl]
  unfold detector
  have e0 : ((cfg0.win 2).blk t).view.emb (ix3 (0 : Fin 1) p j) 0 = (⟨win0_2.index t (0 : Fin 3), hB⟩ : Fin 8) :=
    Fin.ext (by show win0_2.index t (0 : Fin 3) * 1 + 1 * 0 = win0_2.index t (0 : Fin 3); omega)
  have e1 : ((cfg0.win 2).blk t).view.emb (ix3 (0 : Fin 1) p j) 1
      = (⟨128 * win0_2.index t (1 : Fin 3) + p.val, by omega⟩ : Fin 512) :=
    Fin.ext (by show win0_2.index t (1 : Fin 3) * 128 + 1 * p.val = 128 * win0_2.index t (1 : Fin 3) + p.val; omega)
  have e2 : ((cfg0.win 2).blk t).view.emb (ix3 (0 : Fin 1) p j) 2 = j :=
    Fin.ext (by show win0_2.index t (2 : Fin 3) * 542 + 1 * j.val = j.val; omega)
  rw [e0, e1, e2]

/-- An index of the detector array lies in a point's block iff each coordinate is in the block's range. -/
theorem mem_blk (t : Fin cfg0.N) (i : S8x512x542.Idx) :
    i ∈ ((cfg0.win 2).blk t).view.set ↔ ∀ a : Fin 3, win0_2.index t a * S1x128x542.size a ≤ (i a).val
      ∧ (i a).val < win0_2.index t a * S1x128x542.size a + S1x128x542.size a := by
  show i ∈ ((View.whole main_v0).slice (win0_2.rect t)).set ↔ _
  rw [View.set_slice_whole, Rect.mem_set_unit]
  exact Iff.rfl

/-- Every index of the detector array is in the block of the point of its image and row tile. -/
theorem covered (i : S8x512x542.Idx) :
    ∃ t : Fin cfg0.N, (cfg0.win 2).flush t = true ∧ i ∈ ((cfg0.win 2).blk t).view.set := by
  have hi0 : (i 0).val < 8 := (i 0).isLt
  have hi1 : (i 1).val < 512 := (i 1).isLt
  have hi2 : (i 2).val < 542 := (i 2).isLt
  obtain ⟨t, ht⟩ := idx_onto ⟨(i 0).val, hi0⟩ ⟨(i 1).val / 128, by omega⟩
  have q0 : win0_2.index t (0 : Fin 3) = (i 0).val := congrFun ht 0
  have q1 : win0_2.index t (1 : Fin 3) = (i 1).val / 128 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 542 ≤ (i 2).val ∧ (i 2).val < win0_2.index t (2 : Fin 3) * 542 + 542; omega

/-- The detector array after the run is the specification's. -/
theorem final (c : Dev nD) :
    (dats m 0 c).arrAt 2 cfg0.N
      = detector (m ((c.tc : Thread nD τ).loc main_arg0)) (m ((c.tc : Thread nD τ).loc main_arg1)) :=
  (dats m 0 c).arrAt_eq_of_cover 2 _ (fun t _ => flushed_eq m c t) covered

/-! ## The lines after the region -/

/-- The detector array as the lines after the region find it. -/
theorem tail_arr (c : Dev nD) :
    Pipeline.withArrays (cfgs 0).spec c (V0 m c) (fun w => (dats m 0 c).arrAt w (cfgs 0).N) (Proc.devRef .tc main_v0)
      = detector (m ((c.tc : Thread nD τ).loc main_arg0)) (m ((c.tc : Thread nD τ).loc main_arg1)) :=
  (Pipeline.withArrays_arr spec0 launch0.win.arr_inj c _ _ 2).trans (final m c)

/-- The aperture as the lines after the region find it: as launched. -/
theorem tail_arg1 (c : Dev nD) :
    Pipeline.withArrays (cfgs 0).spec c (V0 m c) (fun w => (dats m 0 c).arrAt w (cfgs 0).N) (Proc.devRef .tc main_arg1)
      = m ((c.tc : Thread nD τ).loc main_arg1) :=
  (Pipeline.withArrays_arr spec0 launch0.win.arr_inj c _ _ 1).trans
    (((dats m 0 c).arrAt_in 1 rfl _).trans ((A_eq m c 1).trans (V_main_arg1 m c)))

/-- The host's maximum over all three axes, from minus infinity, is the fold of the maximum over every pixel. -/
theorem reduce_max_eq (D : SY.Idx → EReal) (h : S8x512x542.ReducesTo [0, 1, 2] S_) (hu : 0 < S_.numel) (k : S_.Idx) :
    Host.reduce (FloatOps.maximumf (F := Ideal) (φ := .f32)) D (constant (F := Ideal) S_ .f32 0xFF800000#32) h hu k
      = (Finset.univ : Finset SY.Idx).fold (FloatOps.maximumf (F := Ideal) (φ := .f32))
          (Ideal.ofBits .f32 0xFF800000#32) D := by
  rw [Host.reduce_eq_fold, Finset.filter_true_of_mem fun i _ => funext fun a => a.elim0]
  rfl

/-- The host's quotient at an index divides the elements. -/
theorem hostDivf_apply {s : Shape} {φ : FTy} (a b : FVec Ideal s φ) (i : s.Idx) :
    Host.divf a b i = Ideal.div (a i) (b i) := rfl

/-- A detector pixel by its coordinates. -/
theorem detector_apply (X : SX.Idx → EReal) (H : SH.Idx → EReal) (b : Fin 8) (r : Fin 512) (j : Fin 542) :
    detector X H (ix3 b r j) = partialSum X H 31 b r j := rfl

/-- A normalized pixel by its coordinates. -/
theorem normalized_apply (X : SX.Idx → EReal) (H : SH.Idx → EReal) (b : Fin 8) (r : Fin 512) (j : Fin 542) (u : Fin 1) :
    normalized X H (ix4 b r j u) = Ideal.div (partialSum X H 31 b r j) (peak X H) := rfl

/-- The first result as the lines after the region leave it: every detector pixel divided by the largest. -/
theorem tail_v4 (c : Dev nD) :
    Pipeline.afterTail₀ cfgs (dats m) 0 (V0 m) [hostOps1] c main_v4
      = normalized (m ((c.tc : Thread nD τ).loc main_arg0)) (m ((c.tc : Thread nD τ).loc main_arg1)) := by
  unfold Pipeline.afterTail₀
  show StableHlo.after hostOps1 _ (Proc.devRef .tc main_v4) = _
  after_results
  rw [tail_arr m c]
  funext y
  obtain ⟨b, r, j, u, rfl⟩ : ∃ (b : Fin 8) (r : Fin 512) (j : Fin 542) (u : Fin 1), y = ix4 b r j u :=
    ⟨y 0, y 1, y 2, y 3, eq_ix4 y⟩
  refine (broadcastInDim_apply _ _ _ (ix4 b r j u) (ix3 b r j) fun a => ?_).trans ?_
  · match a with
    | ⟨0, _⟩ => rfl
    | ⟨1, _⟩ => rfl
    | ⟨2, _⟩ => rfl
  rw [hostDivf_apply, detector_apply, normalized_apply]
  refine congrArg (Ideal.div _) ?_
  refine (broadcastInDim_apply _ _ _ (ix3 b r j) ix0 fun a => a.elim0).trans ?_
  exact reduce_max_eq _ _ _ _

/-- The second result as the lines after the region leave it: the aperture with a trailing unit axis. -/
theorem tail_v5 (c : Dev nD) :
    Pipeline.afterTail₀ cfgs (dats m) 0 (V0 m) [hostOps1] c main_v5
      = aperture5 (m ((c.tc : Thread nD τ).loc main_arg1)) := by
  unfold Pipeline.afterTail₀
  show StableHlo.after hostOps1 _ (Proc.devRef .tc main_v5) = _
  after_results
  rw [tail_arg1 m c]
  rfl

end Lemmas

/-- Every weakly fair execution of the idealized kernel program ends with the normalized detector images and the
    aperture with its unit axis, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
        = ShiftSum.normalized (m ((c.tc : Thread nD τ).loc main_arg0)) (m ((c.tc : Thread nD τ).loc main_arg1))
      ∧ r.2.mem ((c.tc : Thread nD τ).loc main_v5) = ShiftSum.aperture5 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v4 (Pipeline.mem_restRefs_of main_v4 (by decide) (by decide))).trans (tail_v4 m c),
        ((h c).2 main_v5 (Pipeline.mem_restRefs_of main_v5 (by decide) (by decide))).trans (tail_v5 m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (Body.run_main (F := Ideal) m ρ)

end Cert.KernelIdeal.KValue

end
-- ==== Proof.ScatterRead.lean ====
/-
  A scatter-add of a full-width slab at one column offset, read at an index.

  The slab `u` [8, 512, 512, 1] is added into the operand `x` [8, 512, 542, 1] with its columns starting at column `k`
  (one scatter index, the window all of `u`): every update lands inside the operand and no two land on the same
  element, so the result at column `j` is the operand's entry combined with the slab's at column `j - k` when
  `k ≤ j < k + 512`, and the operand's entry elsewhere.

  The scatter is a left fold over the update indices, each step replacing the entry at the update's target (when it has
  one) by the body applied to that entry and the update. First the fold in general: over a list without repeats, with
  a target map under which a given element `i'` has at most one preimage in the list, the result at `i'` is the body
  applied once (to the starting entry and that preimage's update) if there is a preimage, and the starting entry if
  there is none — when the preimage's turn comes no earlier step has touched `i'`, and no later step does. Then the
  target map of these dimension numbers: update index `(b, m, q, z)` lands at `(b, m, q + k, z)`, always inside.
-/
import Idealize.ShloMosaic.PureOps
import Idealize.ShloMosaic.Lib.ValueIdx
import proofs.«149298_j38439957299668_1_alg».proof.Proof.Spec

noncomputable section

namespace ShiftSum

open Idealize.ShloMosaic Idealize.ShloMosaic.ValueIdx

/-- One band of every image, as the reference slices it out. -/
abbrev SU : Shape := ⟨4, ![8, 512, 512, 1]⟩
/-- The one scatter index. -/
abbrev SI : Shape := ⟨1, ![1]⟩

/-! ## The fold in general -/

section Fold

variable {ι β α : Type} [DecidableEq β]

/-- One step of the fold: update `n` with target `g n = some i` replaces the entry at `i` by `f` of that entry and the
    update's value `v n`; an update without a target changes nothing. -/
def scatterStep (f : α → α → α) (g : ι → Option β) (v : ι → α) (r : β → α) (n : ι) : β → α :=
  match g n with
  | some i => fun i' => if i' = i then f (r i) (v n) else r i'
  | none => r

/-- An element that is no update's target keeps its starting entry. -/
theorem foldl_scatterStep_of_forall_ne (f : α → α → α) (g : ι → Option β) (v : ι → α) (l : List ι) (x : β → α)
    (i' : β) (h : ∀ n ∈ l, g n ≠ some i') : (l.foldl (scatterStep f g v) x) i' = x i' := by
  induction l generalizing x with
  | nil => rfl
  | cons n t ih =>
    rw [List.foldl_cons, ih _ (fun n' hn' => h n' (List.mem_cons_of_mem _ hn'))]
    have hn := h n (List.mem_cons_self ..)
    unfold scatterStep
    cases hg : g n with
    | none => rfl
    | some i =>
      simp only
      rw [if_neg]
      intro e
      exact hn (by rw [hg, e])

/-- An element that is the target of exactly one update `n` of a list without repeats ends as `f` of its starting
    entry and that update's value: the steps before `n` leave it alone, step `n` combines, the steps after leave it
    alone again. -/
theorem foldl_scatterStep_of_mem (f : α → α → α) (g : ι → Option β) (v : ι → α) (l : List ι) (hl : l.Nodup)
    (x : β → α) (i' : β) (n : ι) (hn : n ∈ l) (hgn : g n = some i') (hinj : ∀ n' ∈ l, g n' = some i' → n' = n) :
    (l.foldl (scatterStep f g v) x) i' = f (x i') (v n) := by
  induction l generalizing x with
  | nil => cases hn
  | cons n0 t ih =>
    obtain ⟨hn0, ht⟩ := List.nodup_cons.1 hl
    rw [List.foldl_cons]
    by_cases e : n0 = n
    · -- `n` is the head: it combines, and nothing in the tail has this target
      subst e
      rw [foldl_scatterStep_of_forall_ne]
      · unfold scatterStep
        rw [hgn]
        simp only [if_true]
      · intro n' hn' hg'
        exact hn0 (hinj n' (List.mem_cons_of_mem _ hn') hg' ▸ hn')
    · -- `n` is in the tail: the head has another target or none
      have hnt : n ∈ t := by
        rcases List.mem_cons.1 hn with h | h
        · exact absurd h.symm e
        · exact h
      have hg0 : g n0 ≠ some i' := fun h => e (hinj n0 (List.mem_cons_self ..) h)
      rw [ih ht _ hnt (fun n' hn' => hinj n' (List.mem_cons_of_mem _ hn'))]
      congr 1
      unfold scatterStep
      cases hg : g n0 with
      | none => rfl
      | some i =>
        simp only
        rw [if_neg]
        intro e'
        exact hg0 (by rw [hg, e'])

end Fold

/-- The scatter is the fold of that step over the update positions in row-major order, the target of position `n` the
    result index of the update index at `n`. (The list of positions is never unfolded: only the two step functions
    are compared.) -/
theorem scatter_eq_foldl {α : Type} (f : α → α → α) (D : ScatterDims SY1 SI SU) (x : SY1.Idx → α) (idx : IVec SI 32)
    (u : SU.Idx → α) :
    Host.scatter D f x idx u =
      (List.finRange SU.numel).foldl
        (scatterStep f (fun n => D.resultIdx? (SU.rowMajor.symm n) idx) (fun n => u (SU.rowMajor.symm n))) x := by
  unfold Host.scatter
  congr 1
  funext r n
  unfold scatterStep
  dsimp only
  cases D.resultIdx? (SU.rowMajor.symm n) idx <;> rfl

/-! ## The target map of these dimension numbers -/

/-- A 32-bit word holding `k ≤ 30` reads, signed, as `k`. -/
theorem scatter_toInt_ofNat (k : ℕ) (hk : k ≤ 30) : (BitVec.ofNat 32 k).toInt = (k : Int) := by
  have h : (BitVec.ofNat 32 k).toNat = k := by
    rw [BitVec.toNat_ofNat]; exact Nat.mod_eq_of_lt (by omega)
  rw [BitVec.toInt_eq_toNat_of_lt (by rw [h]; omega), h]

/-- The window starts at column `k` on the column axis (the one axis the scatter index addresses; every entry of the
    index array is `k`, so which entry is read does not matter) and at `0` on the others. -/
theorem scatter_start_eq (D : ScatterDims SY1 SI SU) (hD3 : D.scatterDimsToOperandDims = [2])
    (k : ℕ) (hk : k ≤ 30) (idx : IVec SI 32) (hidx : ∀ i, idx i = BitVec.ofNat 32 k) (j : SU.Idx) (a : Fin SY1.rank) :
    D.start j idx a = if a.val = 2 then (k : Int) else 0 := by
  unfold ScatterDims.start
  by_cases ha : a ∈ D.scatterDimsToOperandDims
  · rw [dif_pos ha, hidx, scatter_toInt_ofNat k hk]
    rw [hD3] at ha
    have : a = 2 := List.mem_singleton.1 ha
    subst this
    rfl
  · rw [dif_neg ha]
    rw [hD3] at ha
    have : a.val ≠ 2 := by
      intro h
      apply ha
      have : a = 2 := Fin.ext h
      rw [this]
      exact List.mem_singleton.2 rfl
    rw [if_neg this]

/-- With no inserted axis and the window axes all four in order, the window coordinate on an operand axis is the
    update index's coordinate on the same axis. -/
theorem scatter_window_eq (D : ScatterDims SY1 SI SU) (hD1 : D.updateWindowDims = [0, 1, 2, 3])
    (hD2 : D.insertedWindowDims = []) (j : SU.Idx) (a : Fin 4) : D.window j a = (j a).val := by
  obtain ⟨uw, iw, sd, iv, wf⟩ := D
  subst hD1 hD2
  fin_cases a <;> rfl

/-- Update index `(b, m, q, z)` lands at `(b, m, q + k, z)`, which is inside the operand since `q + k < 512 + 30`. -/
theorem scatter_resultIdx?_eq (D : ScatterDims SY1 SI SU)
    (hD1 : D.updateWindowDims = [0, 1, 2, 3]) (hD2 : D.insertedWindowDims = [])
    (hD3 : D.scatterDimsToOperandDims = [2])
    (k : ℕ) (hk : k ≤ 30) (idx : IVec SI 32) (hidx : ∀ i, idx i = BitVec.ofNat 32 k) (j : SU.Idx) :
    D.resultIdx? j idx =
      some (ix4 (n0 := 8) (n1 := 512) (n2 := 542) (n3 := 1) (j 0) (j 1)
        ⟨(j 2).val + k, by have : (j 2).val < 512 := (j 2).isLt; omega⟩ (j 3)) := by
  have hs := scatter_start_eq D hD3 k hk idx hidx j
  have hw := scatter_window_eq D hD1 hD2 j
  have h0 : (j 0).val < 8 := (j 0).isLt
  have h1 : (j 1).val < 512 := (j 1).isLt
  have h2 : (j 2).val < 512 := (j 2).isLt
  have h3 : (j 3).val < 1 := (j 3).isLt
  have hall : ∀ a, 0 ≤ D.start j idx a + D.window j a ∧ D.start j idx a + (D.window j a : Int) < SY1.size a := by
    intro a
    rw [hs a, hw a]
    match a with
    | ⟨0, _⟩ => show 0 ≤ (0 : Int) + ((j 0).val : Int) ∧ (0 : Int) + ((j 0).val : Int) < ((8 : ℕ) : Int); omega
    | ⟨1, _⟩ => show 0 ≤ (0 : Int) + ((j 1).val : Int) ∧ (0 : Int) + ((j 1).val : Int) < ((512 : ℕ) : Int); omega
    | ⟨2, _⟩ => show 0 ≤ (k : Int) + ((j 2).val : Int) ∧ (k : Int) + ((j 2).val : Int) < ((542 : ℕ) : Int); omega
    | ⟨3, _⟩ => show 0 ≤ (0 : Int) + ((j 3).val : Int) ∧ (0 : Int) + ((j 3).val : Int) < ((1 : ℕ) : Int); omega
  unfold ScatterDims.resultIdx?
  rw [dif_pos hall]
  congr 1
  funext a
  apply Fin.ext
  show (D.start j idx a + (D.window j a : Int)).toNat = _
  rw [hs a, hw a]
  match a with
  | ⟨0, _⟩ => show ((0 : Int) + ((j 0).val : Int)).toNat = (j 0).val; omega
  | ⟨1, _⟩ => show ((0 : Int) + ((j 1).val : Int)).toNat = (j 1).val; omega
  | ⟨2, _⟩ => show ((k : Int) + ((j 2).val : Int)).toNat = (j 2).val + k; omega
  | ⟨3, _⟩ => show ((0 : Int) + ((j 3).val : Int)).toNat = (j 3).val; omega

/-- So update index `J` lands at `(b, m, j, z)` exactly when it is `(b, m, j - k, z)`: the target map is injective. -/
theorem scatter_resultIdx?_eq_some_iff (D : ScatterDims SY1 SI SU)
    (hD1 : D.updateWindowDims = [0, 1, 2, 3]) (hD2 : D.insertedWindowDims = [])
    (hD3 : D.scatterDimsToOperandDims = [2])
    (k : ℕ) (hk : k ≤ 30) (idx : IVec SI 32) (hidx : ∀ i, idx i = BitVec.ofNat 32 k) (J : SU.Idx)
    (b : Fin 8) (m : Fin 512) (j : Fin 542) (z : Fin 1) :
    D.resultIdx? J idx = some (ix4 b m j z) ↔ J 0 = b ∧ J 1 = m ∧ (J 2).val + k = j.val ∧ J 3 = z := by
  rw [scatter_resultIdx?_eq D hD1 hD2 hD3 k hk idx hidx J]
  constructor
  · intro h
    have e := Option.some.inj h
    exact ⟨congrFun e 0, congrFun e 1, congrArg Fin.val (congrFun e 2), congrFun e 3⟩
  · rintro ⟨h0, h1, h2, h3⟩
    congr 1
    funext a
    match a with
    | ⟨0, _⟩ => exact h0
    | ⟨1, _⟩ => exact h1
    | ⟨2, _⟩ => exact Fin.ext h2
    | ⟨3, _⟩ => exact h3

/-! ## The scatter read at an index -/

theorem scatter_shift_apply {α : Type} (f : α → α → α) (D : ScatterDims SY1 SI SU)
    (hD1 : D.updateWindowDims = [0, 1, 2, 3]) (hD2 : D.insertedWindowDims = [])
    (hD3 : D.scatterDimsToOperandDims = [2]) (hD4 : D.indexVectorDim = 0)
    (k : ℕ) (hk : k ≤ 30) (x : SY1.Idx → α) (idx : IVec SI 32) (hidx : ∀ i, idx i = BitVec.ofNat 32 k)
    (u : SU.Idx → α) (b : Fin 8) (m : Fin 512) (j : Fin 542) (z : Fin 1) :
    Host.scatter D f x idx u (ix4 b m j z) =
      if h : k ≤ j.val ∧ j.val < k + 512 then f (x (ix4 b m j z)) (u (ix4 b m ⟨j.val - k, by omega⟩ z))
      else x (ix4 b m j z) := by
  have hiff := fun J => scatter_resultIdx?_eq_some_iff D hD1 hD2 hD3 k hk idx hidx J b m j z
  rw [scatter_eq_foldl]
  by_cases h : k ≤ j.val ∧ j.val < k + 512
  · -- inside the band: the one update landing here is the one at `(b, m, j - k, z)`; the row-major positions are all
    -- distinct and every update index has one
    rw [dif_pos h]
    have hsym : SU.rowMajor.symm (SU.rowMajor (ix4 b m ⟨j.val - k, by omega⟩ z)) = ix4 b m ⟨j.val - k, by omega⟩ z :=
      Equiv.symm_apply_apply _ _
    rw [foldl_scatterStep_of_mem f _ _ _ (List.nodup_finRange _) x (ix4 b m j z)
      (SU.rowMajor (ix4 b m ⟨j.val - k, by omega⟩ z)) (List.mem_finRange _)]
    · rw [hsym]
    · rw [hsym, hiff]
      refine ⟨rfl, rfl, ?_, rfl⟩
      show j.val - k + k = j.val
      omega
    · intro n' _ hn'
      rw [hiff] at hn'
      obtain ⟨h0, h1, h2, h3⟩ := hn'
      apply (Equiv.symm_apply_eq _).1
      rw [eq_ix4 (SU.rowMajor.symm n')]
      congr 1
      apply Fin.ext
      show (SU.rowMajor.symm n' 2).val = j.val - k
      omega
  · -- outside the band: an update landing here would have its column `j - k` inside `[0, 512)`
    rw [dif_neg h]
    apply foldl_scatterStep_of_forall_ne
    intro n _ hn
    rw [hiff] at hn
    obtain ⟨h0, h1, h2, h3⟩ := hn
    have : (SU.rowMajor.symm n 2).val < 512 := (SU.rowMajor.symm n 2).isLt
    exact h ⟨by omega, by omega⟩

end ShiftSum

end
-- ==== Proof.RefValue.lean ====
/-
  The reference's result, read off its run: the detector images of `ShiftSum` divided by their largest pixel.

  The reference multiplies the aperture (stretched over the eight images) into the cube, starts the detector array
  [8, 512, 542, 1] at zero, and for each band n = 0 … 30 slices band n out of the product, reshapes it to a slab
  [8, 512, 512, 1] and scatter-adds the slab into the running array at column offset n. Read at an index, one such
  scatter-add adds the slab's column j - n into column j when n ≤ j < n + 512 and leaves the other columns alone:
  exactly the step from `partialSum n` to `partialSum (n + 1)`, the slab's entry being the coded entry of band n (the
  product commuted). So by induction the running array after n bands holds the n-band partial sums (`acc_apply`), and
  after all 31 the detector images. The maximum over all four axes, folded from minus infinity, is a fold of a
  commutative and associative operation over the set of all indices; dropping the unit axis is a bijection onto the
  detector's indices, so it is the specification's `peak`. The quotient entry by entry is `normalized`. The second
  result is the aperture with a trailing unit axis on both sides.
-/
import proofs.«149298_j38439957299668_1_alg».proof.Proof.RefRun
import proofs.«149298_j38439957299668_1_alg».proof.Proof.RefRead
import proofs.«149298_j38439957299668_1_alg».proof.Proof.Spec
import proofs.«149298_j38439957299668_1_alg».proof.Proof.ScatterRead
import Idealize.ShloMosaic.PureOps.Reduce
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.ReadP
open ShiftSum (SX SH SY SY1 SU SI coded partialSum partialSum_succ partialSum_zero detector peak normalized)

/-! ## One band -/

/-- One scatter-add of band n's slab at column offset n carries the partial sums from n bands to n + 1. -/
theorem step (X : SX.Idx → EReal) (H : SH.Idx → EReal) (D : ScatterDims SY1 SI SU)
    (hD1 : D.updateWindowDims = [0, 1, 2, 3]) (hD2 : D.insertedWindowDims = [])
    (hD3 : D.scatterDimsToOperandDims = [2]) (hD4 : D.indexVectorDim = 0)
    (n : ℕ) (hn : n < 31) (T : SY1.Idx → EReal)
    (hT : ∀ b m j z, T (ix4 b m j z) = partialSum X H n b m j)
    (idx : IVec SI 32) (hidx : ∀ i, idx i = BitVec.ofNat 32 n)
    (u : SU.Idx → EReal) (hu : ∀ b m q z, u (ix4 b m q z) = coded X H b m q ⟨n, hn⟩)
    (b : Fin 8) (m : Fin 512) (j : Fin 542) (z : Fin 1) :
    Host.scatter D (FloatOps.addf (F := Ideal) (φ := .f32)) T idx u (ix4 b m j z) = partialSum X H (n + 1) b m j := by
  rw [ShiftSum.scatter_shift_apply _ D hD1 hD2 hD3 hD4 n (by omega) T idx hidx u b m j z, partialSum_succ]
  by_cases h : n ≤ j.val ∧ j.val < n + 512
  · rw [dif_pos h, dif_pos ⟨hn, h⟩, hT, hu]; rfl
  · rw [dif_neg h, dif_neg (fun h' => h h'.2), hT]

/-- The coded cube with a trailing unit axis, as the reference forms it: the aperture, stretched over the images,
    times the cube. -/
def cube5 (X : SX.Idx → EReal) (H : SH.Idx → EReal) : S8x512x512x31x1.Idx → EReal :=
  mulf (F := Ideal) (φ := .f32)
    (broadcastInDim S8x512x512x31x1 ![0, 1, 2, 3, 4] bcast_S1x512x512x31x1_S8x512x512x31x1_0_1_2_3_4
      (broadcastInDim S1x512x512x31x1 ![0, 1, 2, 3] bcast_S1x512x512x31_S1x512x512x31x1_0_1_2_3 H))
    (broadcastInDim S8x512x512x31x1 ![0, 1, 2, 3] bcast_S8x512x512x31_S8x512x512x31x1_0_1_2_3 X)

/-- An entry of it is the coded entry (the product commuted). -/
theorem cube5_apply (X : SX.Idx → EReal) (H : SH.Idx → EReal) (b : Fin 8) (m q : Fin 512) (l : Fin 31) (w : Fin 1) :
    cube5 X H (ix5 b m q l w) = coded X H b m q l := by
  unfold cube5
  rw [mulf_apply]
  rw [broadcastInDim_apply _ bcast_S1x512x512x31x1_S8x512x512x31x1_0_1_2_3_4 _ (ix5 b m q l w) (ix5 0 m q l 0)
      (fun a => match a with
        | ⟨0, _⟩ => rfl | ⟨1, _⟩ => rfl | ⟨2, _⟩ => rfl | ⟨3, _⟩ => rfl | ⟨4, _⟩ => rfl),
    broadcastInDim_apply _ bcast_S1x512x512x31_S1x512x512x31x1_0_1_2_3 H (ix5 0 m q l 0) (ix4 0 m q l)
      (fun a => match a with
        | ⟨0, _⟩ => rfl | ⟨1, _⟩ => rfl | ⟨2, _⟩ => rfl | ⟨3, _⟩ => rfl),
    broadcastInDim_apply _ bcast_S8x512x512x31_S8x512x512x31x1_0_1_2_3 X (ix5 b m q l w) (ix4 b m q l)
      (fun a => match a with
        | ⟨0, _⟩ => rfl | ⟨1, _⟩ => rfl | ⟨2, _⟩ => rfl | ⟨3, _⟩ => rfl)]
  exact mul_comm _ _

/-- Band n is a block of the coded cube. -/
theorem slices_band (n : ℕ) (hn : n < 31) : S8x512x512x31x1.Slices ![0, 0, 0, n, 0] S8x512x512x1x1 :=
  ⟨rfl, fun a => match a with
    | ⟨0, _⟩ => by show 0 + 8 ≤ 8; omega
    | ⟨1, _⟩ => by show 0 + 512 ≤ 512; omega
    | ⟨2, _⟩ => by show 0 + 512 ≤ 512; omega
    | ⟨3, _⟩ => by show n + 1 ≤ 31; omega
    | ⟨4, _⟩ => by show 0 + 1 ≤ 1; omega⟩

/-- Band n of every image, as the reference slices and reshapes it. -/
def slab (X : SX.Idx → EReal) (H : SH.Idx → EReal) (n : ℕ) (hn : n < 31) : S8x512x512x1.Idx → EReal :=
  shapeCast _ (extractStridedSlice S8x512x512x1x1 ![0, 0, 0, n, 0] (cube5 X H) (slices_band n hn))
    shapeCasts_S8x512x512x1x1_S8x512x512x1

/-- An entry of the slab is the coded entry of its band. -/
theorem slab_apply (X : SX.Idx → EReal) (H : SH.Idx → EReal) (n : ℕ) (hn : n < 31) (b : Fin 8) (m q : Fin 512)
    (z : Fin 1) : slab X H n hn (ix4 b m q z) = coded X H b m q ⟨n, hn⟩ := by
  unfold slab
  rw [shapeCast_apply _ shapeCasts_S8x512x512x1x1_S8x512x512x1 (ix4 b m q z) (ix5 b m q z 0)
      (by rw [Shape.rowMajor_val_five, Shape.rowMajor_val_four]
          show (((b.val * 512 + m.val) * 512 + q.val) * 1 + z.val) * 1 + 0
            = ((b.val * 512 + m.val) * 512 + q.val) * 1 + z.val
          omega),
    extractStridedSlice_apply _ _ (slices_band n hn) (ix5 b m q z 0) (ix5 b m q ⟨n, hn⟩ 0)
      (fun a => match a with
        | ⟨0, _⟩ => by show b.val = 0 + b.val; omega
        | ⟨1, _⟩ => by show m.val = 0 + m.val; omega
        | ⟨2, _⟩ => by show q.val = 0 + q.val; omega
        | ⟨3, _⟩ => by show n = n + z.val; omega
        | ⟨4, _⟩ => by show 0 = 0 + 0; omega)]
  exact cube5_apply X H b m q ⟨n, hn⟩ 0

/-! ## The running array -/

/-- The scatter index of band n: the column offset n, as one 32-bit word. -/
def offs (n : ℕ) : IVec S1 32 := broadcastInDim S1 ![] bcast_S_S1 (constantI S_ 32 (BitVec.ofNat 32 n))

/-- Its one entry is that word. -/
theorem offs_apply (n : ℕ) (i : S1.Idx) : offs n i = BitVec.ofNat 32 n := rfl

/-- The running detector array after the first n bands, as the reference builds it: zeros, then one scatter-add
    per band. -/
def acc (X : SX.Idx → EReal) (H : SH.Idx → EReal) : ℕ → S8x512x542x1.Idx → EReal
  | 0 => broadcastInDim S8x512x542x1 ![] bcast_S_S8x512x542x1 (constant (F := Ideal) S_ .f32 0x00000000#32)
  | n + 1 =>
    if hn : n < 31 then
      Host.scatter scatter_S8x512x542x1_S1_S8x512x512x1_0123_n_2_0 (FloatOps.addf (F := Ideal) (φ := .f32))
        (acc X H n) (offs n) (slab X H n hn)
    else acc X H n

/-- Before any band the running array is the zeros. -/
theorem acc_zero (X : SX.Idx → EReal) (H : SH.Idx → EReal) :
    acc X H 0 = broadcastInDim S8x512x542x1 ![] bcast_S_S8x512x542x1 (constant (F := Ideal) S_ .f32 0x00000000#32) := rfl

/-- Band n < 31 is laid down by one scatter-add of its slab at column offset n. -/
theorem acc_succ (X : SX.Idx → EReal) (H : SH.Idx → EReal) (n : ℕ) (hn : n < 31) :
    acc X H (n + 1) = Host.scatter scatter_S8x512x542x1_S1_S8x512x512x1_0123_n_2_0
      (FloatOps.addf (F := Ideal) (φ := .f32)) (acc X H n) (offs n) (slab X H n hn) := by
  show (if hn : n < 31 then _ else _) = _
  rw [dif_pos hn]

/-- After n ≤ 31 bands the running array holds the n-band partial sums. -/
theorem acc_apply (X : SX.Idx → EReal) (H : SH.Idx → EReal) (n : ℕ) (hn : n ≤ 31) (b : Fin 8) (m : Fin 512)
    (j : Fin 542) (z : Fin 1) : acc X H n (ix4 b m j z) = partialSum X H n b m j := by
  induction n generalizing b m j z with
  | zero =>
    rw [acc_zero, partialSum_zero]
    show Ideal.ofBits .f32 0x00000000#32 = 0
    exact Ideal.ofBits_zero_f32
  | succ n ih =>
    rw [acc_succ X H n (by omega)]
    exact step X H _ rfl rfl rfl rfl n (by omega) _ (fun b m j z => ih (by omega) b m j z) _ (offs_apply n) _
      (slab_apply X H n (by omega)) b m j z

/-! ## The largest pixel and the quotient -/

/-- Dropping the unit axis of a detector index. -/
def dropUnit (i : SY1.Idx) : SY.Idx := ix3 (i 0) (i 1) (i 2)

/-- The unit axis carries no information: dropping it loses nothing … -/
theorem dropUnit_injective : Function.Injective dropUnit := by
  intro i i' h
  have h0 : i 0 = i' 0 := congrFun h 0
  have h1 : i 1 = i' 1 := congrFun h 1
  have h2 : i 2 = i' 2 := congrFun h 2
  have h3 : i 3 = i' 3 := Fin.ext (by
    have a : (i 3).val < 1 := (i 3).isLt
    have a' : (i' 3).val < 1 := (i' 3).isLt
    omega)
  rw [eq_ix4 i, eq_ix4 i', h0, h1, h2, h3]

/-- … and reaches every detector index. -/
theorem dropUnit_surjective : Function.Surjective dropUnit := fun y =>
  ⟨ix4 (y 0) (y 1) (y 2) 0, (eq_ix3 y).symm⟩

/-- The largest element of an array that holds the detector images, folded over all four axes from minus infinity, is
    the largest detector pixel: the fold runs over every index (the result has rank zero), the maximum commutes and
    associates, and dropping the unit axis is a bijection onto the detector's indices. -/
theorem reduce_max_eq_peak (X : SX.Idx → EReal) (H : SH.Idx → EReal) (T : SY1.Idx → EReal)
    (hT : ∀ b m j z, T (ix4 b m j z) = partialSum X H 31 b m j)
    (hr : SY1.ReducesTo [0, 1, 2, 3] S_) (hu : 0 < S_.numel) (k : S_.Idx) :
    Host.reduce (FloatOps.maximumf (F := Ideal) (φ := .f32)) T (constant (F := Ideal) S_ .f32 0xFF800000#32) hr hu k
      = peak X H := by
  rw [Host.reduce_eq_fold]
  have hall : (Finset.univ.filter fun i : SY1.Idx => hr.drop i = k) = Finset.univ :=
    Finset.filter_true_of_mem fun i _ => funext fun a => a.elim0
  have hTd : T = detector X H ∘ dropUnit := funext fun i => by
    rw [eq_ix4 i]; exact hT _ _ _ _
  rw [hall, hTd, ← Finset.fold_image (fun x _ y _ h => dropUnit_injective h),
    Finset.image_univ_of_surjective dropUnit_surjective]
  unfold peak
  rw [constant_apply]

/-- The specification's first result at an index given by its coordinates. -/
theorem normalized_apply (X : SX.Idx → EReal) (H : SH.Idx → EReal) (b : Fin 8) (m : Fin 512) (j : Fin 542) (z : Fin 1) :
    normalized X H (ix4 b m j z) = Ideal.div (partialSum X H 31 b m j) (peak X H) := by
  unfold normalized
  have e0 : (ix4 b m j z : SY1.Idx) 0 = b := rfl
  have e1 : (ix4 b m j z : SY1.Idx) 1 = m := rfl
  have e2 : (ix4 b m j z : SY1.Idx) 2 = j := rfl
  rw [e0, e1, e2]

/-- The host's quotient at an index is the quotient of the elements. -/
theorem hostDivf_apply {s : Shape} (a b : FVec Ideal s .f32) (i : s.Idx) :
    Host.divf a b i = Ideal.div (a i) (b i) := rfl

/-- The running array after all 31 bands, divided by its largest element, is the normalized detector image. -/
theorem div_max_eq_normalized (X : SX.Idx → EReal) (H : SH.Idx → EReal) (T : SY1.Idx → EReal)
    (hT : ∀ b m j z, T (ix4 b m j z) = partialSum X H 31 b m j)
    (hb : S_.BroadcastsInDim SY1 ![]) (hr : SY1.ReducesTo [0, 1, 2, 3] S_) (hu : 0 < S_.numel) :
    Host.divf (F := Ideal) (φ := .f32) T (broadcastInDim SY1 ![] hb
        (Host.reduce (FloatOps.maximumf (F := Ideal) (φ := .f32)) T (constant (F := Ideal) S_ .f32 0xFF800000#32) hr hu))
      = normalized X H := by
  funext i
  obtain ⟨b, m, j, z, rfl⟩ : ∃ b m j z, i = ix4 b m j z := ⟨_, _, _, _, eq_ix4 i⟩
  rw [normalized_apply, hostDivf_apply, hT, broadcastInDim_apply _ hb _ _ ix0 (fun a => a.elim0),
    reduce_max_eq_peak X H T hT]

/-! ## The run's term is the running array divided by its largest element -/

/-- One more of the reference's scatter-adds, on an array that is the running array after n bands. -/
theorem acc_step_eq (X : SX.Idx → EReal) (H : SH.Idx → EReal) (n : ℕ) (hn : n < 31) (T : S8x512x542x1.Idx → EReal)
    (hT : T = acc X H n) :
    Host.scatter scatter_S8x512x542x1_S1_S8x512x512x1_0123_n_2_0 (FloatOps.addf (F := Ideal) (φ := .f32)) T (offs n)
      (slab X H n hn) = acc X H (n + 1) := by
  rw [hT, acc_succ X H n hn]

/-- The array the reference holds after its last scatter-add is the running array after all 31 bands: band by band,
    each operation's value is the next running array. -/
theorem val_v128_eq (X : SX.Idx → EReal) (H : SH.Idx → EReal) : val_main_v128 (F := Ideal) X H = acc X H 31 := by
  iterate 31 (refine acc_step_eq X H _ (by omega) _ ?_)
  rfl

/-- The reference's first result, as a function of its two arguments, is the normalized detector image. -/
theorem val_v131_eq (X : SX.Idx → EReal) (H : SH.Idx → EReal) : val_main_v131 (F := Ideal) X H = normalized X H := by
  have h : val_main_v131 (F := Ideal) X H
      = Host.divf (F := Ideal) (φ := .f32) (val_main_v128 (F := Ideal) X H) (broadcastInDim S8x512x542x1 ![] bcast_S_S8x512x542x1
          (Host.reduce (FloatOps.maximumf (F := Ideal) (φ := .f32)) (val_main_v128 (F := Ideal) X H)
            (constant (F := Ideal) S_ .f32 0xFF800000#32) reducesTo_S8x512x542x1_S_d0_1_2_3 h_S_)) := rfl
  rw [h, val_v128_eq]
  exact div_max_eq_normalized X H (acc X H 31) (acc_apply X H 31 (Nat.le_refl 31)) _ _ _

/-! ## The run -/

/-- Every weakly fair execution of the reference ends with the normalized detector images and the aperture with its
    unit axis, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v131)
        = ShiftSum.normalized (m ((c.tc : Thread nD τ).loc main_arg0)) (m ((c.tc : Thread nD τ).loc main_arg1))
      ∧ r.2.mem ((c.tc : Thread nD τ).loc main_v0) = ShiftSum.aperture5 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun _ h c => ⟨(h c).1.trans ((val_main_v131_eq (F := Ideal) m c).trans (val_v131_eq _ _)), (h c).2.1.trans rfl,
      (h c).2.2.1, (h c).2.2.2⟩)
    (Cert.ReferenceIdeal.ValueP.run (F := Ideal) m ρ)

end Cert.ReferenceIdeal.RefValue

end
-- ==== Proof.lean ====
/-
  The optical forward model, kernel against reference.

  Both programs form the coded cube (cube times aperture, entry by entry), lay band `n` of every row down shifted right
  by `n` detector pixels, add the bands up from zero in increasing `n`, divide the detector images by their largest
  pixel, and return them with a trailing unit axis beside the aperture with a trailing unit axis (`ShiftSum`). The
  kernel does the shift-and-sum block by block in its output window, 128 rows of one image at a grid point, each band
  an in-place update of 512 columns; the reference does it on whole arrays, each band a scatter-add of a slab at column
  offset `n`. Over the extended reals the two agree entry by entry: the only law used is that multiplication commutes
  (the kernel multiplies cube by aperture, the reference aperture by cube), so the precondition is never opened.
  The three frames: each program runs to its end and leaves its two argument arrays as they were — for the two kernel
  programs from the pipeline's run over the body's triple, for the reference from its run. Nothing was rewritten by the
  idealization, so there is nothing to preserve.
-/
import proofs.«149298_j38439957299668_1_alg».proof.Defs
import proofs.«149298_j38439957299668_1_alg».proof.Proof.Gen.Kernel
import proofs.«149298_j38439957299668_1_alg».proof.Proof.Gen.KernelIdeal
import proofs.«149298_j38439957299668_1_alg».proof.Proof.Gen.ReferenceIdeal
import proofs.«149298_j38439957299668_1_alg».proof.Proof.Gen.Pre_finite_inputs
import proofs.«149298_j38439957299668_1_alg».proof.Proof.BodyBits
import proofs.«149298_j38439957299668_1_alg».proof.Proof.BodyIdeal
import proofs.«149298_j38439957299668_1_alg».proof.Proof.KernelValue
import proofs.«149298_j38439957299668_1_alg».proof.Proof.RefValue

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Body.frame (F := Bits) m ρ

/-- So does its reading over the extended reals. -/
theorem frame_kernelIdeal : Cert.frame_KernelIdeal := fun m ρ _ => Cert.KernelIdeal.Body.frame (F := Ideal) m ρ

/-- The reference runs and keeps its arguments: its run with the results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.RefValue.run m ρ)

/-- The idealization rewrote no operation. -/
theorem preserves : Cert.preserves_Kernel_KernelIdeal := trivial

/-- From memories that agree on the cubes and the aperture both programs end with the normalized detector images and
    the aperture with its unit axis. -/
theorem algebraic : Cert.algebraic_KernelIdeal_ReferenceIdeal := by
  intro m ρ m' ρ' _ hagree
  refine ⟨fun c => ShiftSum.normalized
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => ShiftSum.aperture5
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ?_) (Cert.ReferenceIdeal.RefValue.run m' ρ')
  obtain ⟨h1, h2, h3, h4⟩ := h c
  refine ⟨h1.trans ?_, h2.trans ?_, h3, h4⟩
  · rw [(hagree c).1, (hagree c).2]
  · rw [(hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
